-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x8 : Shape := ⟨2, ![16, 8]⟩
abbrev S8 : Shape := ⟨1, ![8]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S8 .f32) (main_v13 : IVec S_ 1) (main_v16 : IVec S16x8 1) : IVec S_ 1 :=
  let main_c_5 : IVec S_ 1 := constantI S_ 1 1#1
  let main_v17 : IVec S_ 1 := (fun x v => Host.reduce IntOp.andi x v reducesTo_S16x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S100000x256 .f32) (main_arg1 : IVec S2x3200000 32) (main_arg2 : FVec F S256x16 .f32) (main_arg3 : FVec F S16 .f32) (main_arg4 : FVec F S16x8 .f32) (main_arg5 : FVec F S8 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x16 .f32 := Host.absf main_arg2
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x8 .f32 := Host.absf main_arg4
  let main_cst_4 : FVec F S_ .f32 := constant S_ .f32 0x7F800000#32
  let main_v15 : FVec F S16x8 .f32 := broadcastInDim S16x8 ![] bcast_S_S16x8 main_cst_4
  let main_v16 : IVec S16x8 1 := cmpf .olt main_v14 main_v15
  fn_part1 (F := F) main_arg5 main_v13 main_v16
-- ==== Kernel.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x8 : Shape := ⟨2, ![16, 8]⟩
abbrev S8 : Shape := ⟨1, ![8]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x256 : Shape := ⟨2, ![5000, 256]⟩
abbrev S5000x16 : Shape := ⟨2, ![5000, 16]⟩
abbrev S3300000x16 : Shape := ⟨2, ![3300000, 16]⟩
abbrev S1x16 : Shape := ⟨2, ![1, 16]⟩
abbrev S100000x8 : Shape := ⟨2, ![100000, 8]⟩
abbrev S5000x8 : Shape := ⟨2, ![5000, 8]⟩
abbrev S3300000x8 : Shape := ⟨2, ![3300000, 8]⟩
abbrev S1x8 : Shape := ⟨2, ![1, 8]⟩
abbrev S5000 : Shape := ⟨1, ![5000]⟩
abbrev S5000x1 : Shape := ⟨2, ![5000, 1]⟩

abbrev nBuf : Space → Nat
  | .hbm => 84
  | .vmem => 20
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x16, .f32⟩
  | .hbm, ⟨3, _⟩ => ⟨S16, .f32⟩
  | .hbm, ⟨4, _⟩ => ⟨S16x8, .f32⟩
  | .hbm, ⟨5, _⟩ => ⟨S8, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x8, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x8, .f32⟩
  | .hbm, ⟨75, _⟩ => ⟨S3300000x1, .f32⟩
  | .hbm, ⟨76, _⟩ => ⟨S3300000x8, .f32⟩
  | .hbm, ⟨77, _⟩ => ⟨S3300000x8, .f32⟩
  | .hbm, ⟨78, _⟩ => ⟨S_, .f32⟩
  | .hbm, ⟨79, _⟩ => ⟨S100000x8, .f32⟩
  | .hbm, ⟨80, _⟩ => ⟨S3300000x1, .i32⟩
  | .hbm, ⟨81, _⟩ => ⟨S100000x8, .f32⟩
  | .hbm, ⟨82, _⟩ => ⟨S1x8, .f32⟩
  | .hbm, ⟨83, _⟩ => ⟨S100000x8, .f32⟩
  | .local _ .vmem, ⟨0, _⟩ => ⟨S5000x256, .f32⟩
  | .local _ .vmem, ⟨1, _⟩ => ⟨S5000x256, .f32⟩
  | .local _ .vmem, ⟨2, _⟩ => ⟨S256x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S1x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S16x8, .f32⟩
  | .local _ .vmem, ⟨13, _⟩ => ⟨S5000x8, .f32⟩
  | .local _ .vmem, ⟨14, _⟩ => ⟨S5000x8, .f32⟩
  | .local _ .vmem, ⟨15, _⟩ => ⟨S5000x8, .f32⟩
  | .local _ .vmem, ⟨16, _⟩ => ⟨S5000x8, .f32⟩
  | .local _ .vmem, ⟨17, _⟩ => ⟨S1x8, .f32⟩
  | .local _ .vmem, ⟨18, _⟩ => ⟨S5000x8, .f32⟩
  | .local _ .vmem, ⟨19, _⟩ => ⟨S5000x8, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x8 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x8 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x8 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x16_S256x16_0_0 : ∀ a, (![0, 0] : Fin 2 → Nat) a + S256x16.size a ≤ S256x16.size a
  h_S256x16 : 0 < S256x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x8_S16x8_0_0 : ∀ a, (![0, 0] : Fin 2 → Nat) a + S16x8.size a ≤ S16x8.size a
  h_S16x8 : 0 < S16x8.numel
  inb_S5000x8_S5000x8_0_0 : ∀ a, (![0, 0] : Fin 2 → Nat) a + S5000x8.size a ≤ S5000x8.size a
  h_S5000x8 : 0 < S5000x8.numel
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  shapeCasts_S8_S1x8 : S8.ShapeCasts S1x8
  shapeCasts_S5000x8_S5000x8 : S5000x8.ShapeCasts S5000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  reduces_S5000x8_S5000 : S5000x8.Reduces [1] S5000
  shapeCasts_S5000_S5000x1 : S5000.ShapeCasts S5000x1
  broadcasts_S5000x1_S5000x8 : S5000x1.Broadcasts S5000x8
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x256_S256x16_S5000x16_1_0_0_1_n_n_wf : DotDims.WF S5000x256 S256x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x8_S5000x8_1_0_0_1_n_n_wf : DotDims.WF S5000x16 S16x8 S5000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S100000x16.size a
  hwx1_2 : ∀ i : grid1.Coords, EltTy.bits .f32 = 32 ∨ (Rect.block (s := S100000x16) S5000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x8.size a ≤ S16x8.size a
  hwx2_1 : ∀ i : grid2.Coords, EltTy.bits .f32 = 32 ∨ (Rect.block (s := S16x8) S16x8.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x8.size a ≤ S100000x8.size a
  hwx2_2 : ∀ i : grid2.Coords, EltTy.bits .f32 = 32 ∨ (Rect.block (s := S100000x8) S5000x8.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x8.size a ≤ S100000x8.size a
  hwx3_0 : ∀ i : grid3.Coords, EltTy.bits .f32 = 32 ∨ (Rect.block (s := S100000x8) S5000x8.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x8.size a ≤ S1x8.size a
  hwx3_1 : ∀ i : grid3.Coords, EltTy.bits .f32 = 32 ∨ (Rect.block (s := S1x8) S1x8.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x8.size a ≤ S100000x8.size a
  hwx3_2 : ∀ i : grid3.Coords, EltTy.bits .f32 = 32 ∨ (Rect.block (s := S100000x8) S5000x8.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x256_S256x16_S5000x16_1_0_0_1_n_n : DotDims S5000x256 S256x16 S5000x16 where
  lhsContracting := [1]
  rhsContracting := [0]
  lhsNonContracting := [0]
  rhsNonContracting := [1]
  lhsBatch := []
  rhsBatch := []
  wf := dot_S5000x256_S256x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x8_S5000x8_1_0_0_1_n_n : DotDims S5000x16 S16x8 S5000x8 where
  lhsContracting := [1]
  rhsContracting := [0]
  lhsNonContracting := [0]
  rhsNonContracting := [1]
  lhsBatch := []
  rhsBatch := []
  wf := dot_S5000x16_S16x8_S5000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x8.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x8.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x8.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x8.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x8 : Shape := ⟨2, ![16, 8]⟩
abbrev S8 : Shape := ⟨1, ![8]⟩
abbrev S100000x16 : Shape := ⟨2, ![100000, 16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x8 : Shape := ⟨2, ![100000, 8]⟩
abbrev S3300000x8 : Shape := ⟨2, ![3300000, 8]⟩
abbrev S1x8 : Shape := ⟨2, ![1, 8]⟩
abbrev S100000x1 : Shape := ⟨2, ![100000, 1]⟩

abbrev nBuf : Space → Nat
  | .hbm => 144
  | .vmem => 0
  | .smem => 0
  | _ => 0

abbrev hbmTy0_0 (i : Nat) : BufTy := match i % 128 with
  | 0 => ⟨S100000x256, .f32⟩
  | 1 => ⟨S2x3200000, .i32⟩
  | 2 => ⟨S256x16, .f32⟩
  | 3 => ⟨S16, .f32⟩
  | 4 => ⟨S16x8, .f32⟩
  | 5 => ⟨S8, .f32⟩
  | 6 => ⟨S100000x16, .f32⟩
  | 7 => ⟨S100000, .i32⟩
  | 8 => ⟨S1x3200000, .i32⟩
  | 9 => ⟨S3200000, .i32⟩
  | 10 => ⟨S3300000, .i32⟩
  | 11 => ⟨S1x3200000, .i32⟩
  | 12 => ⟨S3200000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000x8, .f32⟩
  | 70 => ⟨S100000, .i32⟩
  | 71 => ⟨S1x3200000, .i32⟩
  | 72 => ⟨S3200000, .i32⟩
  | 73 => ⟨S3300000, .i32⟩
  | 74 => ⟨S1x3200000, .i32⟩
  | 75 => ⟨S3200000, .i32⟩
  | 76 => ⟨S3300000, .i32⟩
  | 77 => ⟨S_, .f32⟩
  | 78 => ⟨S3300000, .f32⟩
  | 79 => ⟨S_, .f32⟩
  | 80 => ⟨S100000, .f32⟩
  | 81 => ⟨S3300000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000, .f32⟩
  | 109 => ⟨S3300000, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x8, .f32⟩
  | 119 => ⟨S3300000x1, .f32⟩
  | 120 => ⟨S3300000x8, .f32⟩
  | 121 => ⟨S3300000x8, .f32⟩
  | 122 => ⟨S_, .f32⟩
  | 123 => ⟨S100000x8, .f32⟩
  | 124 => ⟨S3300000x1, .i32⟩
  | 125 => ⟨S100000x8, .f32⟩
  | 126 => ⟨S1x8, .f32⟩
  | 127 => ⟨S100000x8, .f32⟩
  | _ => ⟨S100000x256, .f32⟩

abbrev hbmTy0_1 (i : Nat) : BufTy := match i % 128 with
  | 0 => ⟨S100000x8, .f32⟩
  | 1 => ⟨S_, .f32⟩
  | 2 => ⟨S100000, .f32⟩
  | 3 => ⟨S_, .f32⟩
  | 4 => ⟨S100000, .f32⟩
  | 5 => ⟨S100000, .f32⟩
  | 6 => ⟨S100000x1, .f32⟩
  | 7 => ⟨S100000x8, .f32⟩
  | 8 => ⟨S100000x8, .f32⟩
  | 9 => ⟨S100000x8, .f32⟩
  | 10 => ⟨S_, .f32⟩
  | 11 => ⟨S100000, .f32⟩
  | 12 => ⟨S100000x1, .f32⟩
  | 13 => ⟨S100000x1, .f32⟩
  | 14 => ⟨S100000x8, .f32⟩
  | 15 => ⟨S100000x8, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call3_cst : Ref sig .tc := ⟨.hbm, 129, rfl⟩
abbrev main_call3_v0 : Ref sig .tc := ⟨.hbm, 130, rfl⟩
abbrev main_call3_cst_0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_cst_1 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_v95 : Ref sig .tc := ⟨.hbm, 143, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  reducesTo_S100000x8_S100000_d1 : S100000x8.ReducesTo [1] S100000
  h_S_ : 0 < S_.numel
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  dot_S100000x256_S256x16_S100000x16_1_0_0_1_n_n_wf : DotDims.WF S100000x256 S256x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x8_S100000x8_1_0_0_1_n_n_wf : DotDims.WF S100000x16 S16x8 S100000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1

variable [Facts₀]

def dot_S100000x256_S256x16_S100000x16_1_0_0_1_n_n : DotDims S100000x256 S256x16 S100000x16 where
  lhsContracting := [1]
  rhsContracting := [0]
  lhsNonContracting := [0]
  rhsNonContracting := [1]
  lhsBatch := []
  rhsBatch := []
  wf := dot_S100000x256_S256x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x8_S100000x8_1_0_0_1_n_n : DotDims S100000x16 S16x8 S100000x8 where
  lhsContracting := [1]
  rhsContracting := [0]
  lhsNonContracting := [0]
  rhsNonContracting := [1]
  lhsBatch := []
  rhsBatch := []
  wf := dot_S100000x16_S16x8_S100000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf

class Facts : Prop extends Facts₀ where

variable [Facts]
-- ==== Proof.HostKeep.lean ====
/-
  Buffers that pass through a stretch of host operations or a region untouched.

  The edge arrays (sources, destinations, weights) are computed once, before the first region, and read again by the
  two later stretches; the bias and weight arguments are read by the later regions. None of them is written by the
  stretches and regions in between, so each keeps its contents from one boundary to the next.
-/
import proofs.«156959_j16501264351680_1_alg».proof.Proof.Gen.KernelIdeal.Frame
import Idealize.ShloMosaic.Lib.StableHlo.Run

set_option maxRecDepth 16384

noncomputable section

namespace Cert.KernelIdeal.HostK

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The first region is entered after three stretches of host operations from the launch contents. -/
theorem W3_unfold (c : Dev nD) (b : DevRef τ sig) :
    W3 m ρ c b = StableHlo.after hostOps0_2 (StableHlo.after hostOps0_1 (StableHlo.after hostOps0 (W0 m ρ c))) b := rfl

/-! ## The arguments at the first region's entry: no host operation before it writes one -/

theorem W3_arg0 (c : Dev nD) : W3 m ρ c (Proc.devRef .tc main_arg0) = m ((c : Thread nD τ).loc main_arg0) := by
  rw [W3_unfold]; dsimp only [hostOps0, hostOps0_1, hostOps0_2]
  after_results <;> rfl
theorem W3_arg2 (c : Dev nD) : W3 m ρ c (Proc.devRef .tc main_arg2) = m ((c : Thread nD τ).loc main_arg2) := by
  rw [W3_unfold]; dsimp only [hostOps0, hostOps0_1, hostOps0_2]
  after_results <;> rfl
theorem W3_arg3 (c : Dev nD) : W3 m ρ c (Proc.devRef .tc main_arg3) = m ((c : Thread nD τ).loc main_arg3) := by
  rw [W3_unfold]; dsimp only [hostOps0, hostOps0_1, hostOps0_2]
  after_results <;> rfl
theorem W3_arg4 (c : Dev nD) : W3 m ρ c (Proc.devRef .tc main_arg4) = m ((c : Thread nD τ).loc main_arg4) := by
  rw [W3_unfold]; dsimp only [hostOps0, hostOps0_1, hostOps0_2]
  after_results <;> rfl
theorem W3_arg5 (c : Dev nD) : W3 m ρ c (Proc.devRef .tc main_arg5) = m ((c : Thread nD τ).loc main_arg5) := by
  rw [W3_unfold]; dsimp only [hostOps0, hostOps0_1, hostOps0_2]
  after_results <;> rfl

/-! ## Across the first region: none of these is one of its windows' arrays -/

theorem W4_main_v3 (c : Dev nD) : W4 m ρ c (Proc.devRef .tc main_v3) = W3 m ρ c (Proc.devRef .tc main_v3) := W4_of_ne m ρ c main_v3 (by decide)
theorem W4_main_v6 (c : Dev nD) : W4 m ρ c (Proc.devRef .tc main_v6) = W3 m ρ c (Proc.devRef .tc main_v6) := W4_of_ne m ρ c main_v6 (by decide)
theorem W4_main_v29 (c : Dev nD) : W4 m ρ c (Proc.devRef .tc main_v29) = W3 m ρ c (Proc.devRef .tc main_v29) := W4_of_ne m ρ c main_v29 (by decide)
theorem W4_main_arg3 (c : Dev nD) : W4 m ρ c (Proc.devRef .tc main_arg3) = W3 m ρ c (Proc.devRef .tc main_arg3) := W4_of_ne m ρ c main_arg3 (by decide)
theorem W4_main_arg4 (c : Dev nD) : W4 m ρ c (Proc.devRef .tc main_arg4) = W3 m ρ c (Proc.devRef .tc main_arg4) := W4_of_ne m ρ c main_arg4 (by decide)
theorem W4_main_arg5 (c : Dev nD) : W4 m ρ c (Proc.devRef .tc main_arg5) = W3 m ρ c (Proc.devRef .tc main_arg5) := W4_of_ne m ρ c main_arg5 (by decide)

/-! ## Across the stretch after the first region -/

theorem W5_main_v3 (c : Dev nD) : W5 m ρ c (Proc.devRef .tc main_v3) = W4 m ρ c (Proc.devRef .tc main_v3) := by
  show StableHlo.after hostOps1 (W4 m ρ c) (Proc.devRef .tc main_v3) = _
  dsimp only [hostOps1]
  after_results <;> rfl
theorem W5_main_v6 (c : Dev nD) : W5 m ρ c (Proc.devRef .tc main_v6) = W4 m ρ c (Proc.devRef .tc main_v6) := by
  show StableHlo.after hostOps1 (W4 m ρ c) (Proc.devRef .tc main_v6) = _
  dsimp only [hostOps1]
  after_results <;> rfl
theorem W5_main_v29 (c : Dev nD) : W5 m ρ c (Proc.devRef .tc main_v29) = W4 m ρ c (Proc.devRef .tc main_v29) := by
  show StableHlo.after hostOps1 (W4 m ρ c) (Proc.devRef .tc main_v29) = _
  dsimp only [hostOps1]
  after_results <;> rfl
theorem W5_main_arg4 (c : Dev nD) : W5 m ρ c (Proc.devRef .tc main_arg4) = W4 m ρ c (Proc.devRef .tc main_arg4) := by
  show StableHlo.after hostOps1 (W4 m ρ c) (Proc.devRef .tc main_arg4) = _
  dsimp only [hostOps1]
  after_results <;> rfl
theorem W5_main_arg5 (c : Dev nD) : W5 m ρ c (Proc.devRef .tc main_arg5) = W4 m ρ c (Proc.devRef .tc main_arg5) := by
  show StableHlo.after hostOps1 (W4 m ρ c) (Proc.devRef .tc main_arg5) = _
  dsimp only [hostOps1]
  after_results <;> rfl

/-! ## Across the second region -/

theorem W6_main_v3 (c : Dev nD) : W6 m ρ c (Proc.devRef .tc main_v3) = W5 m ρ c (Proc.devRef .tc main_v3) := W6_of_ne m ρ c main_v3 (by decide)
theorem W6_main_v6 (c : Dev nD) : W6 m ρ c (Proc.devRef .tc main_v6) = W5 m ρ c (Proc.devRef .tc main_v6) := W6_of_ne m ρ c main_v6 (by decide)
theorem W6_main_v29 (c : Dev nD) : W6 m ρ c (Proc.devRef .tc main_v29) = W5 m ρ c (Proc.devRef .tc main_v29) := W6_of_ne m ρ c main_v29 (by decide)
theorem W6_main_arg4 (c : Dev nD) : W6 m ρ c (Proc.devRef .tc main_arg4) = W5 m ρ c (Proc.devRef .tc main_arg4) := W6_of_ne m ρ c main_arg4 (by decide)
theorem W6_main_arg5 (c : Dev nD) : W6 m ρ c (Proc.devRef .tc main_arg5) = W5 m ρ c (Proc.devRef .tc main_arg5) := W6_of_ne m ρ c main_arg5 (by decide)

/-! ## Across the third region -/

theorem W7_main_v3 (c : Dev nD) : W7 m ρ c (Proc.devRef .tc main_v3) = W6 m ρ c (Proc.devRef .tc main_v3) := W7_of_ne m ρ c main_v3 (by decide)
theorem W7_main_v6 (c : Dev nD) : W7 m ρ c (Proc.devRef .tc main_v6) = W6 m ρ c (Proc.devRef .tc main_v6) := W7_of_ne m ρ c main_v6 (by decide)
theorem W7_main_v29 (c : Dev nD) : W7 m ρ c (Proc.devRef .tc main_v29) = W6 m ρ c (Proc.devRef .tc main_v29) := W7_of_ne m ρ c main_v29 (by decide)
theorem W7_main_arg5 (c : Dev nD) : W7 m ρ c (Proc.devRef .tc main_arg5) = W6 m ρ c (Proc.devRef .tc main_arg5) := W7_of_ne m ρ c main_arg5 (by decide)

end Cert.KernelIdeal.HostK

end
-- ==== Proof.SpecDefs.lean ====
/-
  The pieces of the two-layer graph convolution, named as functions of their operands.

  One layer is  out = scatter-add over the edges' destinations of  h[src] * w,  where the edge list is the input's
  edges followed by one self loop per node, and the edge weight is  w = dinv[src] * dinv[dst]  with
  dinv = rsqrt(in-degree) where the degree is positive and zero elsewhere. The reference then adds the bias; after
  layer one it takes max(., 0), after layer two the row-wise  z - max z - log (sum (exp (z - max z))).
  Each piece is spelt with the reference program's own operations.
-/
import proofs.«156959_j16501264351680_1_alg».proof.Proof.Gen.ReferenceIdeal

noncomputable section

namespace Cert.Gcn

open Cert.ReferenceIdeal Cert.ReferenceIdeal.Gen Idealize.ShloMosaic

variable {F : FTy → Type} [FloatOps F]

/-- The edges' sources: row 0 of the edge input, then every node once (the self loops). -/
def srcOf (ei : (⟨S2x3200000, .i32⟩ : BufTy).Contents (Elt F)) : (⟨S3300000, .i32⟩ : BufTy).Contents (Elt F) :=
  concatenate S3300000 0 [⟨S3200000, shapeCast _ (extractStridedSlice S1x3200000 ![0, 0] ei slices_S2x3200000_S1x3200000_0_0) shapeCasts_S1x3200000_S3200000⟩,
    ⟨S100000, iotaInDim S100000 32 0⟩] concatenates_S3200000_S100000_S3300000_d0

/-- The edges' destinations: row 1 of the edge input, then every node once. -/
def dstOf (ei : (⟨S2x3200000, .i32⟩ : BufTy).Contents (Elt F)) : (⟨S3300000, .i32⟩ : BufTy).Contents (Elt F) :=
  concatenate S3300000 0 [⟨S3200000, shapeCast _ (extractStridedSlice S1x3200000 ![1, 0] ei slices_S2x3200000_S1x3200000_1_0) shapeCasts_S1x3200000_S3200000⟩,
    ⟨S100000, iotaInDim S100000 32 0⟩] concatenates_S3200000_S100000_S3300000_d0

/-- The in-degree of every node: one summed into each edge's destination. -/
def degOf (ei : (⟨S2x3200000, .i32⟩ : BufTy).Contents (Elt F)) : (⟨S100000, .f32⟩ : BufTy).Contents (Elt F) :=
  Host.scatterAdd scatter_S100000_S3300000x1_S3300000_n_0_0_1
    (broadcastInDim S100000 ![] bcast_S_S100000 (constant S_ .f32 0x00000000#32))
    (broadcastInDim S3300000x1 ![0] bcast_S3300000_S3300000x1_0 (dstOf ei))
    (broadcastInDim S3300000 ![] bcast_S_S3300000 (constant S_ .f32 0x3F800000#32))

/-- The reciprocal square root of the degree where it is positive, zero elsewhere. -/
def dinvOf (ei : (⟨S2x3200000, .i32⟩ : BufTy).Contents (Elt F)) : (⟨S100000, .f32⟩ : BufTy).Contents (Elt F) :=
  select (cmpf (F := F) .ogt (degOf ei) (broadcastInDim S100000 ![] bcast_S_S100000 (constant S_ .f32 0x00000000#32)))
    (Host.rsqrt (degOf ei)) (broadcastInDim S100000 ![] bcast_S_S100000 (constant S_ .f32 0x00000000#32))

/-- A node index below zero counts from the end: 100000 is added to it. -/
def wrapIdx (s : (⟨S3300000, .i32⟩ : BufTy).Contents (Elt F)) : (⟨S3300000, .i32⟩ : BufTy).Contents (Elt F) :=
  select (cmpi .slt s (broadcastInDim S3300000 ![] bcast_S_S3300000 (constantI S_ 32 0#32)))
    (addi s (broadcastInDim S3300000 ![] bcast_S_S3300000 (constantI S_ 32 100000#32))) s

/-- The edges' weights: dinv at the source times dinv at the destination. -/
def wOf (ei : (⟨S2x3200000, .i32⟩ : BufTy).Contents (Elt F)) : (⟨S3300000, .f32⟩ : BufTy).Contents (Elt F) :=
  mulf (Host.gather gather_S100000_S3300000x1_S3300000_n_0_n_n_0_1_1 (dinvOf ei)
      (broadcastInDim S3300000x1 ![0] bcast_S3300000_S3300000x1_0 (wrapIdx (srcOf ei))))
    (Host.gather gather_S100000_S3300000x1_S3300000_n_0_n_n_0_1_1 (dinvOf ei)
      (broadcastInDim S3300000x1 ![0] bcast_S3300000_S3300000x1_0 (wrapIdx (dstOf ei))))

/-- One layer's aggregation at width 16: row `src e` of `h`, times the edge's weight, summed into row `dst e`. -/
def agg16 (h : (⟨S100000x16, .f32⟩ : BufTy).Contents (Elt F)) (src dst : (⟨S3300000, .i32⟩ : BufTy).Contents (Elt F)) (w : (⟨S3300000, .f32⟩ : BufTy).Contents (Elt F)) :
    (⟨S100000x16, .f32⟩ : BufTy).Contents (Elt F) :=
  Host.scatterAdd scatter_S100000x16_S3300000x1_S3300000x16_1_0_0_1
    (broadcastInDim S100000x16 ![] bcast_S_S100000x16 (constant S_ .f32 0x00000000#32))
    (broadcastInDim S3300000x1 ![0] bcast_S3300000_S3300000x1_0 dst)
    (mulf (Host.gather gather_S100000x16_S3300000x1_S3300000x16_1_0_n_n_0_1_116 h
        (broadcastInDim S3300000x1 ![0] bcast_S3300000_S3300000x1_0 (wrapIdx src)))
      (broadcastInDim S3300000x16 ![0, 1] bcast_S3300000x1_S3300000x16_0_1
        (broadcastInDim S3300000x1 ![0] bcast_S3300000_S3300000x1_0 w)))

/-- The same aggregation at width 8. -/
def agg8 (h : (⟨S100000x8, .f32⟩ : BufTy).Contents (Elt F)) (src dst : (⟨S3300000, .i32⟩ : BufTy).Contents (Elt F)) (w : (⟨S3300000, .f32⟩ : BufTy).Contents (Elt F)) :
    (⟨S100000x8, .f32⟩ : BufTy).Contents (Elt F) :=
  Host.scatterAdd scatter_S100000x8_S3300000x1_S3300000x8_1_0_0_1
    (broadcastInDim S100000x8 ![] bcast_S_S100000x8 (constant S_ .f32 0x00000000#32))
    (broadcastInDim S3300000x1 ![0] bcast_S3300000_S3300000x1_0 dst)
    (mulf (Host.gather gather_S100000x8_S3300000x1_S3300000x8_1_0_n_n_0_1_18 h
        (broadcastInDim S3300000x1 ![0] bcast_S3300000_S3300000x1_0 (wrapIdx src)))
      (broadcastInDim S3300000x8 ![0, 1] bcast_S3300000x1_S3300000x8_0_1
        (broadcastInDim S3300000x1 ![0] bcast_S3300000_S3300000x1_0 w)))

/-- Layer one's activation: the bias added to every row, then the maximum with zero. -/
def biasRelu (a : (⟨S100000x16, .f32⟩ : BufTy).Contents (Elt F)) (b : (⟨S16, .f32⟩ : BufTy).Contents (Elt F)) : (⟨S100000x16, .f32⟩ : BufTy).Contents (Elt F) :=
  maximumf (addf a (broadcastInDim S100000x16 ![0, 1] bcast_S1x16_S100000x16_0_1 (broadcastInDim S1x16 ![1] bcast_S16_S1x16_1 b)))
    (broadcastInDim S100000x16 ![] bcast_S_S100000x16 (constant S_ .f32 0x00000000#32))

/-- Layer two's bias, added to every row. -/
def bias8 (a : (⟨S100000x8, .f32⟩ : BufTy).Contents (Elt F)) (b : (⟨S8, .f32⟩ : BufTy).Contents (Elt F)) : (⟨S100000x8, .f32⟩ : BufTy).Contents (Elt F) :=
  addf a (broadcastInDim S100000x8 ![0, 1] bcast_S1x8_S100000x8_0_1 (broadcastInDim S1x8 ![1] bcast_S8_S1x8_1 b))

/-- Each entry less its row's maximum. -/
def shifted (z : (⟨S100000x8, .f32⟩ : BufTy).Contents (Elt F)) : (⟨S100000x8, .f32⟩ : BufTy).Contents (Elt F) :=
  subf z (broadcastInDim S100000x8 ![0, 1] bcast_S100000x1_S100000x8_0_1
    (broadcastInDim S100000x1 ![0] bcast_S100000_S100000x1_0
      (maximumf (broadcastInDim S100000 ![] bcast_S_S100000 (constant S_ .f32 0xFF800000#32))
        (Host.reduce FloatOps.maximumf z (constant S_ .f32 0xFF800000#32) reducesTo_S100000x8_S100000_d1 h_S_))))

/-- The row-wise log-softmax: the shifted entry less the logarithm of the row's sum of exponentials of shifted entries. -/
def logSoftmax (z : (⟨S100000x8, .f32⟩ : BufTy).Contents (Elt F)) : (⟨S100000x8, .f32⟩ : BufTy).Contents (Elt F) :=
  subf (shifted z) (broadcastInDim S100000x8 ![0, 1] bcast_S100000x1_S100000x8_0_1
    (Host.log (broadcastInDim S100000x1 ![0] bcast_S100000_S100000x1_0
      (Host.reduceAdd (Host.exp (shifted z)) (constant S_ .f32 0x00000000#32) reducesTo_S100000x8_S100000_d1 h_S_))))

/-- The second product: activations by the second weight matrix. -/
def dot2 (h : (⟨S100000x16, .f32⟩ : BufTy).Contents (Elt F)) (w : (⟨S16x8, .f32⟩ : BufTy).Contents (Elt F)) : (⟨S100000x8, .f32⟩ : BufTy).Contents (Elt F) :=
  Host.dotGeneral dot_S100000x16_S16x8_S100000x8_1_0_0_1_n_n none h w

/-- The first product: features by the first weight matrix. -/
def dot1 (x : (⟨S100000x256, .f32⟩ : BufTy).Contents (Elt F)) (w : (⟨S256x16, .f32⟩ : BufTy).Contents (Elt F)) : (⟨S100000x16, .f32⟩ : BufTy).Contents (Elt F) :=
  Host.dotGeneral dot_S100000x256_S256x16_S100000x16_1_0_0_1_n_n none x w

/-- The whole computation: two layers, then the row-wise log-softmax. -/
def gcn (x0 : (⟨S100000x256, .f32⟩ : BufTy).Contents (Elt F)) (x1 : (⟨S2x3200000, .i32⟩ : BufTy).Contents (Elt F)) (x2 : (⟨S256x16, .f32⟩ : BufTy).Contents (Elt F))
    (x3 : (⟨S16, .f32⟩ : BufTy).Contents (Elt F)) (x4 : (⟨S16x8, .f32⟩ : BufTy).Contents (Elt F)) (x5 : (⟨S8, .f32⟩ : BufTy).Contents (Elt F)) : (⟨S100000x8, .f32⟩ : BufTy).Contents (Elt F) :=
  logSoftmax (bias8 (agg8 (dot2 (biasRelu (agg16 (dot1 x0 x2) (srcOf x1) (dstOf x1) (wOf x1)) x3) x4)
    (srcOf x1) (dstOf x1) (wOf x1)) x5)

end Cert.Gcn

end
-- ==== Proof.HostK.lean ====
/-
  The kernel program's host stretches, read back.

  Before the first region the host computes, from the edge input alone, the edges' sources, destinations and
  weights. Between the regions it aggregates the region's result over the edges (gather, scale, scatter-add) and
  reshapes the bias to a row. Here each buffer a region or a later stretch reads is named, at the boundary where
  it is read, as the corresponding function of the buffers before it; the edge arrays and the arguments are then
  followed, through the boundaries that leave them untouched, to where the later items read them.
-/
import proofs.«156959_j16501264351680_1_alg».proof.Proof.HostKeep
import proofs.«156959_j16501264351680_1_alg».proof.Proof.SpecDefs

set_option maxRecDepth 16384

noncomputable section

namespace Cert.KernelIdeal.HostK

open Cert.KernelIdeal Cert.KernelIdeal.Gen Idealize.ShloMosaic Idealize.ShloMosaic.TcCoe Idealize.SL.Sem Idealize.ShloMosaic.StableHlo
open Cert.Gcn

variable {F : FTy → Type} [FloatOps F]
variable (m : (ℓ : Loc nD τ sig) → Buf (Elt F) ℓ) (ρ : Dev nD → PrngReg)

/-! ## At the first region's entry: the three stretches before it -/

/-- The edges' sources. -/
theorem W3_src (c : Dev nD) : W3 m ρ c (Proc.devRef .tc main_v3) = srcOf (m ((c : Thread nD τ).loc main_arg1)) := by
  rw [W3_unfold]; dsimp only [hostOps0, hostOps0_1, hostOps0_2]
  after_results
  rfl

/-- The edges' destinations. -/
theorem W3_dst (c : Dev nD) : W3 m ρ c (Proc.devRef .tc main_v6) = dstOf (m ((c : Thread nD τ).loc main_arg1)) := by
  rw [W3_unfold]; dsimp only [hostOps0, hostOps0_1, hostOps0_2]
  after_results
  rfl

set_option maxHeartbeats 4000000 in
/-- The edges' weights. -/
theorem W3_w (c : Dev nD) : W3 m ρ c (Proc.devRef .tc main_v29) = wOf (m ((c : Thread nD τ).loc main_arg1)) := by
  rw [W3_unfold]; dsimp only [hostOps0, hostOps0_1, hostOps0_2]
  after_results
  rfl

/-! ## The first region's exit and the stretch after it -/

/-- The first region's output array is what its pipeline leaves. -/
theorem W4_out (c : Dev nD) : W4 m ρ c (Proc.devRef .tc main_v30) = (dat0 (V3 m ρ) c).arrAt 2 cfg0.N := W4_arr m ρ c 2

set_option maxHeartbeats 4000000 in
/-- Layer one's aggregate. -/
theorem W5_agg (c : Dev nD) : W5 m ρ c (Proc.devRef .tc main_v43)
    = agg16 (W4 m ρ c (Proc.devRef .tc main_v30)) (W4 m ρ c (Proc.devRef .tc main_v3)) (W4 m ρ c (Proc.devRef .tc main_v6)) (W4 m ρ c (Proc.devRef .tc main_v29)) := by
  show StableHlo.after hostOps1 (W4 m ρ c) (Proc.devRef .tc main_v43) = _
  dsimp only [hostOps1]
  after_results
  rfl

/-- Layer one's bias, as a row. -/
theorem W5_bias (c : Dev nD) : W5 m ρ c (Proc.devRef .tc main_v44)
    = shapeCast S1x16 (W4 m ρ c (Proc.devRef .tc main_arg3)) shapeCasts_S16_S1x16 := by
  show StableHlo.after hostOps1 (W4 m ρ c) (Proc.devRef .tc main_v44) = _
  dsimp only [hostOps1]
  after_results <;> rfl

/-! ## The second and third regions' exits -/

theorem W6_out (c : Dev nD) : W6 m ρ c (Proc.devRef .tc main_v45) = (dat1 (V5 m ρ) c).arrAt 2 cfg1.N := W6_arr m ρ c 2

theorem W7_out (c : Dev nD) : W7 m ρ c (Proc.devRef .tc main_v46) = (dat2 (V6 m ρ) c).arrAt 2 cfg2.N := W7_arr m ρ c 2

/-! ## The stretch before the last region, and its exit -/

set_option maxHeartbeats 4000000 in
/-- Layer two's aggregate. -/
theorem W8_agg (c : Dev nD) : W8 m ρ c (Proc.devRef .tc main_v59)
    = agg8 (W7 m ρ c (Proc.devRef .tc main_v46)) (W7 m ρ c (Proc.devRef .tc main_v3)) (W7 m ρ c (Proc.devRef .tc main_v6)) (W7 m ρ c (Proc.devRef .tc main_v29)) := by
  show StableHlo.after hostOps3 (W7 m ρ c) (Proc.devRef .tc main_v59) = _
  dsimp only [hostOps3]
  after_results
  rfl

/-- Layer two's bias, as a row. -/
theorem W8_bias (c : Dev nD) : W8 m ρ c (Proc.devRef .tc main_v60)
    = shapeCast S1x8 (W7 m ρ c (Proc.devRef .tc main_arg5)) shapeCasts_S8_S1x8 := by
  show StableHlo.after hostOps3 (W7 m ρ c) (Proc.devRef .tc main_v60) = _
  dsimp only [hostOps3]
  after_results <;> rfl

theorem W9_out (c : Dev nD) : W9 m ρ c (Proc.devRef .tc main_v61) = (dat3 (V8 m ρ) c).arrAt 2 cfg3.N := W9_arr m ρ c 2

/-! ## The edge arrays and the arguments where the later items read them -/

variable (c : Dev nD)

theorem src4 : W4 m ρ c (Proc.devRef .tc main_v3) = srcOf (m ((c : Thread nD τ).loc main_arg1)) :=
  (W4_main_v3 m ρ c).trans (W3_src m ρ c)
theorem dst4 : W4 m ρ c (Proc.devRef .tc main_v6) = dstOf (m ((c : Thread nD τ).loc main_arg1)) :=
  (W4_main_v6 m ρ c).trans (W3_dst m ρ c)
theorem w4 : W4 m ρ c (Proc.devRef .tc main_v29) = wOf (m ((c : Thread nD τ).loc main_arg1)) :=
  (W4_main_v29 m ρ c).trans (W3_w m ρ c)
theorem arg3_4 : W4 m ρ c (Proc.devRef .tc main_arg3) = m ((c : Thread nD τ).loc main_arg3) :=
  (W4_main_arg3 m ρ c).trans (W3_arg3 m ρ c)
theorem arg4_6 : W6 m ρ c (Proc.devRef .tc main_arg4) = m ((c : Thread nD τ).loc main_arg4) :=
  (W6_main_arg4 m ρ c).trans ((W5_main_arg4 m ρ c).trans ((W4_main_arg4 m ρ c).trans (W3_arg4 m ρ c)))
theorem src7 : W7 m ρ c (Proc.devRef .tc main_v3) = srcOf (m ((c : Thread nD τ).loc main_arg1)) :=
  (W7_main_v3 m ρ c).trans ((W6_main_v3 m ρ c).trans ((W5_main_v3 m ρ c).trans (src4 m ρ c)))
theorem dst7 : W7 m ρ c (Proc.devRef .tc main_v6) = dstOf (m ((c : Thread nD τ).loc main_arg1)) :=
  (W7_main_v6 m ρ c).trans ((W6_main_v6 m ρ c).trans ((W5_main_v6 m ρ c).trans (dst4 m ρ c)))
theorem w7 : W7 m ρ c (Proc.devRef .tc main_v29) = wOf (m ((c : Thread nD τ).loc main_arg1)) :=
  (W7_main_v29 m ρ c).trans ((W6_main_v29 m ρ c).trans ((W5_main_v29 m ρ c).trans (w4 m ρ c)))
theorem arg5_7 : W7 m ρ c (Proc.devRef .tc main_arg5) = m ((c : Thread nD τ).loc main_arg5) :=
  (W7_main_arg5 m ρ c).trans ((W6_main_arg5 m ρ c).trans ((W5_main_arg5 m ρ c).trans ((W4_main_arg5 m ρ c).trans (W3_arg5 m ρ c))))

end Cert.KernelIdeal.HostK

end
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.RegionMM0.lean ====
/-
  The first matrix-product region: what its output array holds after the run.

  The grid has 20 points; point t reads rows 5000 t … 5000 t + 4999 of the [100000, 256] array and the whole
  [256, 16] weight array, and stores their product, a [5000, 16] block, into the same rows of the output. Every row
  lies in exactly one point's block, so after the run the output array is the product of the two arrays the region
  found: at (r, q), the sum over k of x (r, k) * w (k, q).
-/
import proofs.«156959_j16501264351680_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«156959_j16501264351680_1_alg».proof.Proof.LibPlainDot

set_option maxRecDepth 16384

noncomputable section

namespace Cert.KernelIdeal.MatMul0

open Cert.KernelIdeal Cert.KernelIdeal.Gen Idealize.ShloMosaic Idealize.ShloMosaic.TcCoe Idealize.ShloMosaic.ValueIdx Idealize.SL.Sem
open Idealize.ShloMosaic.Pipeline (Dat Cfg Window)

-- the tensor core's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- Entry (r, q) of the product: the sum over k of the left array's (r, k) times the right array's (k, q). -/
def G (x : (⟨2, ![100000, 256]⟩ : Shape).Idx → EReal) (w : (⟨2, ![256, 16]⟩ : Shape).Idx → EReal) :
    (⟨2, ![100000, 16]⟩ : Shape).Idx → EReal :=
  fun i => ∑ k : Fin 256, x (ix2 (⟨(i 0).val, idx2_lt0 i⟩ : Fin 100000) k) * w (ix2 k (⟨(i 1).val, idx2_lt1 i⟩ : Fin 16))

/-- The body's stored value at entry (p, q) of a block: the narrowing of the operands is the identity on extended
    reals, and the product accumulates into zero. -/
theorem pay_apply (x0 : Vec Ideal S5000x256 .f32) (x1 : Vec Ideal S256x16 .f32) (p : Fin 5000) (q : Fin 16) :
    k0_pay1 x0 x1 (ix2 p q) = ∑ k : Fin 256, x0 (ix2 p k) * x1 (ix2 k q) := by
  have e : k0_pay1 x0 x1 = matmul dot_S5000x256_S256x16_S5000x16_1_0_0_1_n_n none (truncf .bf16 x0 bitsLt_bf16_f32)
      (truncf .bf16 x1 bitsLt_bf16_f32) (constant S5000x16 .f32 0x00000000#32) := by
    rfl
  rw [e]
  exact Cert.Lib.PlainDot.matmul_zero_apply (M := 5000) (K := 256) (N := 16) none
    (truncf .bf16 x0 bitsLt_bf16_f32) (truncf .bf16 x1 bitsLt_bf16_f32) p q

/-- The printed index maps over the grid: the row windows are at block t, the weight window at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of G of the arrays the region found. -/
theorem flushed_eq (c : Dev nD) (t : Fin cfg0.N) :
    (dat0 V c).flushed 2 t = ((cfg0.win 2).blk t).view.read (Elt Ideal) (G (V c main_arg0) (V c main_arg2)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x16) hz]
  obtain ⟨e0, e1, e2, e3, e4, e5⟩ := idx_facts t
  funext j
  obtain ⟨p, q, rfl⟩ : ∃ (p : Fin 5000) (q : Fin 16), j = ix2 p q := ⟨j 0, j 1, eq_ix2 j⟩
  show k0_pay1 (iblk0 V c 0 t) (iblk0 V c 1 t) (ix2 p q) = G (V c main_arg0) (V c main_arg2) (((cfg0.win 2).blk t).view.emb (ix2 p q))
  rw [pay_apply (iblk0 V c 0 t) (iblk0 V c 1 t) p q]
  show _ = ∑ k : Fin 256, _
  refine Finset.sum_congr rfl fun k _ => ?_
  have h0 : iblk0 V c 0 t (ix2 p k)
      = V c main_arg0 (ix2 (⟨((((cfg0.win 2).blk t).view.emb (ix2 p q)) 0).val, idx2_lt0 _⟩ : Fin 100000) k) := by
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 256 + 1 * k.val = k.val; omega
  have h1 : iblk0 V c 1 t (ix2 k q)
      = V c main_arg2 (ix2 k (⟨((((cfg0.win 2).blk t).view.emb (ix2 p q)) 1).val, idx2_lt1 _⟩ : Fin 16)) := by
    show V c main_arg2 (((cfg0.win 1).blk t).view.emb (ix2 k q)) = _
    refine congrArg (V c main_arg2) (funext fun a => Fin.ext ?_)
    match a with
    | ⟨0, _⟩ => show win0_1.index t (0 : Fin 2) * 256 + 1 * k.val = k.val; omega
    | ⟨1, _⟩ => show win0_1.index t (1 : Fin 2) * 16 + 1 * q.val = win0_2.index t (1 : Fin 2) * 16 + 1 * q.val; omega
  rw [h0, h1]

/-- An index of the array is in point t's block iff each coordinate is in the block's range on its axis. -/
theorem mem_blk (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v30).slice (win0_2.rect t)).set ↔ _
  rw [View.set_slice_whole, Rect.mem_set_unit]
  exact Iff.rfl

/-- Row r lies in the block of point r / 5000. -/
theorem cover (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 20 := N_0
  let t : Fin cfg0.N := ⟨(i 0).val / 5000, by rw [hN]; omega⟩
  have ht : t.val = (i 0).val / 5000 := rfl
  obtain ⟨e0, e1, e2, e3, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- The output array after the run. -/
theorem final (c : Dev nD) : (dat0 V c).arrAt 2 cfg0.N = G (V c main_arg0) (V c main_arg2) :=
  (dat0 V c).arrAt_eq_of_cover 2 (G (V c main_arg0) (V c main_arg2)) (fun t _ => flushed_eq V c t) (cover)

end Cert.KernelIdeal.MatMul0

end
-- ==== Proof.RegionMM2.lean ====
/-
  The second matrix-product region: what its output array holds after the run.

  The grid has 20 points; point t reads rows 5000 t … 5000 t + 4999 of the [100000, 16] array and the whole
  [16, 8] weight array, and stores their product, a [5000, 8] block, into the same rows of the output. Every row
  lies in exactly one point's block, so after the run the output array is the product of the two arrays the region
  found: at (r, q), the sum over k of x (r, k) * w (k, q).
-/
import proofs.«156959_j16501264351680_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«156959_j16501264351680_1_alg».proof.Proof.LibPlainDot

set_option maxRecDepth 16384

noncomputable section

namespace Cert.KernelIdeal.MatMul2

open Cert.KernelIdeal Cert.KernelIdeal.Gen Idealize.ShloMosaic Idealize.ShloMosaic.TcCoe Idealize.ShloMosaic.ValueIdx Idealize.SL.Sem
open Idealize.ShloMosaic.Pipeline (Dat Cfg Window)

-- the tensor core's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- Entry (r, q) of the product: the sum over k of the left array's (r, k) times the right array's (k, q). -/
def G (x : (⟨2, ![100000, 16]⟩ : Shape).Idx → EReal) (w : (⟨2, ![16, 8]⟩ : Shape).Idx → EReal) :
    (⟨2, ![100000, 8]⟩ : Shape).Idx → EReal :=
  fun i => ∑ k : Fin 16, x (ix2 (⟨(i 0).val, idx2_lt0 i⟩ : Fin 100000) k) * w (ix2 k (⟨(i 1).val, idx2_lt1 i⟩ : Fin 8))

/-- The body's stored value at entry (p, q) of a block: the narrowing of the operands is the identity on extended
    reals, and the product accumulates into zero. -/
theorem pay_apply (x0 : Vec Ideal S5000x16 .f32) (x1 : Vec Ideal S16x8 .f32) (p : Fin 5000) (q : Fin 8) :
    k2_pay1 x0 x1 (ix2 p q) = ∑ k : Fin 16, x0 (ix2 p k) * x1 (ix2 k q) := by
  have e : k2_pay1 x0 x1 = matmul dot_S5000x16_S16x8_S5000x8_1_0_0_1_n_n none (truncf .bf16 x0 bitsLt_bf16_f32)
      (truncf .bf16 x1 bitsLt_bf16_f32) (constant S5000x8 .f32 0x00000000#32) := by
    unfold k2_pay1; simp only [shapeCast_self]
  rw [e]
  exact Cert.Lib.PlainDot.matmul_zero_apply (M := 5000) (K := 16) (N := 8) none
    (truncf .bf16 x0 bitsLt_bf16_f32) (truncf .bf16 x1 bitsLt_bf16_f32) p q

/-- The printed index maps over the grid: the row windows are at block t, the weight window at block 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of G of the arrays the region found. -/
theorem flushed_eq (c : Dev nD) (t : Fin cfg2.N) :
    (dat2 V c).flushed 2 t = ((cfg2.win 2).blk t).view.read (Elt Ideal) (G (V c main_v45) (V c main_arg4)) := by
  show (cfg2.win 2).cut (grid2.coords t) ((dat2 V c).after 2 t) = _
  rw [after2_2]
  unfold out2_2
  rw [View.canon_unit_zero hz]
  simp only [View.ld_unit_zero (S := S5000x16) hz, View.ld_unit_zero (S := S16x8) hz]
  obtain ⟨e0, e1, e2, e3, e4, e5⟩ := idx_facts t
  funext j
  obtain ⟨p, q, rfl⟩ : ∃ (p : Fin 5000) (q : Fin 8), j = ix2 p q := ⟨j 0, j 1, eq_ix2 j⟩
  show k2_pay1 (iblk2 V c 0 t) (iblk2 V c 1 t) (ix2 p q) = G (V c main_v45) (V c main_arg4) (((cfg2.win 2).blk t).view.emb (ix2 p q))
  rw [pay_apply (iblk2 V c 0 t) (iblk2 V c 1 t) p q]
  show _ = ∑ k : Fin 16, _
  refine Finset.sum_congr rfl fun k _ => ?_
  have h0 : iblk2 V c 0 t (ix2 p k)
      = V c main_v45 (ix2 (⟨((((cfg2.win 2).blk t).view.emb (ix2 p q)) 0).val, idx2_lt0 _⟩ : Fin 100000) k) := by
    show V c main_v45 (((cfg2.win 0).blk t).view.emb (ix2 p k)) = _
    refine congrArg (V c main_v45) (funext fun a => Fin.ext ?_)
    match a with
    | ⟨0, _⟩ => show win2_0.index t (0 : Fin 2) * 5000 + 1 * p.val = win2_2.index t (0 : Fin 2) * 5000 + 1 * p.val; omega
    | ⟨1, _⟩ => show win2_0.index t (1 : Fin 2) * 16 + 1 * k.val = k.val; omega
  have h1 : iblk2 V c 1 t (ix2 k q)
      = V c main_arg4 (ix2 k (⟨((((cfg2.win 2).blk t).view.emb (ix2 p q)) 1).val, idx2_lt1 _⟩ : Fin 8)) := by
    show V c main_arg4 (((cfg2.win 1).blk t).view.emb (ix2 k q)) = _
    refine congrArg (V c main_arg4) (funext fun a => Fin.ext ?_)
    match a with
    | ⟨0, _⟩ => show win2_1.index t (0 : Fin 2) * 16 + 1 * k.val = k.val; omega
    | ⟨1, _⟩ => show win2_1.index t (1 : Fin 2) * 8 + 1 * q.val = win2_2.index t (1 : Fin 2) * 8 + 1 * q.val; omega
  rw [h0, h1]

/-- An index of the array is in point t's block iff each coordinate is in the block's range on its axis. -/
theorem mem_blk (t : Fin cfg2.N) (i : S100000x8.Idx) :
    i ∈ ((cfg2.win 2).blk t).view.set ↔ ∀ a : Fin 2, win2_2.index t a * S5000x8.size a ≤ (i a).val ∧ (i a).val < win2_2.index t a * S5000x8.size a + S5000x8.size a := by
  show i ∈ ((View.whole main_v46).slice (win2_2.rect t)).set ↔ _
  rw [View.set_slice_whole, Rect.mem_set_unit]
  exact Iff.rfl

/-- Row r lies in the block of point r / 5000. -/
theorem cover (i : S100000x8.Idx) : ∃ t : Fin cfg2.N, (cfg2.win 2).flush t = true ∧ i ∈ ((cfg2.win 2).blk t).view.set := by
  have hi0 : (i 0).val < 100000 := (i 0).isLt
  have hi1 : (i 1).val < 8 := (i 1).isLt
  have hN : cfg2.N = 20 := N_2
  let t : Fin cfg2.N := ⟨(i 0).val / 5000, by rw [hN]; omega⟩
  have ht : t.val = (i 0).val / 5000 := rfl
  obtain ⟨e0, e1, e2, e3, e4, e5⟩ := idx_facts t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 8 ≤ (i 1).val ∧ (i 1).val < win2_2.index t (1 : Fin 2) * 8 + 8; omega

/-- The output array after the run. -/
theorem final (c : Dev nD) : (dat2 V c).arrAt 2 cfg2.N = G (V c main_v45) (V c main_arg4) :=
  (dat2 V c).arrAt_eq_of_cover 2 (G (V c main_v45) (V c main_arg4)) (fun t _ => flushed_eq V c t) (cover)

end Cert.KernelIdeal.MatMul2

end
-- ==== Proof.RegionRelu.lean ====
/-
  The bias-and-maximum region: what its output array holds after the run.

  The grid has 20 points; point t works on rows 5000 t … 5000 t + 4999 of a [100000, 16] array and on the whole
  [1, 16] bias row. Its body stores, at (p, q) of the block, max (x (p, q) + b (0, q), 0). Every row of the array
  lies in exactly one point's block, so after the run the output array is, at (r, q), max (a (r, q) + b (0, q), 0)
  of the arrays a and b the region found.
-/
import proofs.«156959_j16501264351680_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Relu

open Cert.KernelIdeal Cert.KernelIdeal.Gen Idealize.ShloMosaic Idealize.ShloMosaic.TcCoe Idealize.ShloMosaic.ValueIdx Idealize.SL.Sem
open Idealize.ShloMosaic.Pipeline (Dat Cfg Window)

-- the tensor core's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- Entry (r, q) of the result: the entry of the first array plus the bias row's entry q, then the maximum with the
    printed zero word. -/
def G (a : (⟨2, ![100000, 16]⟩ : Shape).Idx → EReal) (b : (⟨2, ![1, 16]⟩ : Shape).Idx → EReal) :
    (⟨2, ![100000, 16]⟩ : Shape).Idx → EReal :=
  fun i => max (a i + b (ix2 (0 : Fin 1) (⟨(i 1).val, idx2_lt1 i⟩ : Fin 16))) (Ideal.ofBits .f32 0x00000000#32)

/-- The body's stored value at entry (p, q) of a block. -/
theorem pay_apply (x0 : Vec Ideal S5000x16 .f32) (x1 : Vec Ideal S1x16 .f32) (p : Fin 5000) (q : Fin 16) :
    k1_pay1 x0 x1 (ix2 p q) = max (x0 (ix2 p q) + x1 (ix2 (0 : Fin 1) q)) (Ideal.ofBits .f32 0x00000000#32) := by
  have e : k1_pay1 x0 x1 = maximumf (addf x0 (broadcastTo S5000x16 x1 broadcasts_S1x16_S5000x16))
      (broadcast S5000x16 (Scalar.ofBits .f32 0x00000000#32)) := by
    unfold k1_pay1; simp only [shapeCast_self]
  rw [e]
  show max (x0 (ix2 p q) + broadcastTo S5000x16 x1 broadcasts_S1x16_S5000x16 (ix2 p q)) _ = _
  rw [broadcastTo_1b_ab_apply]
  rfl

/-- The printed index maps over the grid: the row windows are at block t, the bias window at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of G of the arrays the region found. -/
theorem flushed_eq (c : Dev nD) (t : Fin cfg1.N) :
    (dat1 V c).flushed 2 t = ((cfg1.win 2).blk t).view.read (Elt Ideal) (G (V c main_v43) (V c main_v44)) := by
  show (cfg1.win 2).cut (grid1.coords t) ((dat1 V c).after 2 t) = _
  rw [after1_2]
  unfold out1_2
  rw [View.canon_unit_zero hz]
  simp only [View.ld_unit_zero (S := S5000x16) hz, View.ld_unit_zero (S := S1x16) hz]
  obtain ⟨e0, e1, e2, e3, e4, e5⟩ := idx_facts t
  funext j
  obtain ⟨p, q, rfl⟩ : ∃ (p : Fin 5000) (q : Fin 16), j = ix2 p q := ⟨j 0, j 1, eq_ix2 j⟩
  show k1_pay1 (iblk1 V c 0 t) (iblk1 V c 1 t) (ix2 p q) = G (V c main_v43) (V c main_v44) (((cfg1.win 2).blk t).view.emb (ix2 p q))
  rw [pay_apply (iblk1 V c 0 t) (iblk1 V c 1 t) p q]
  have h0 : iblk1 V c 0 t (ix2 p q) = V c main_v43 (((cfg1.win 2).blk t).view.emb (ix2 p q)) := by
    show V c main_v43 (((cfg1.win 0).blk t).view.emb (ix2 p q)) = _
    refine congrArg (V c main_v43) (funext fun a => Fin.ext ?_)
    match a with
    | ⟨0, _⟩ => show win1_0.index t (0 : Fin 2) * 5000 + 1 * p.val = win1_2.index t (0 : Fin 2) * 5000 + 1 * p.val; omega
    | ⟨1, _⟩ => show win1_0.index t (1 : Fin 2) * 16 + 1 * q.val = win1_2.index t (1 : Fin 2) * 16 + 1 * q.val; omega
  have h1 : iblk1 V c 1 t (ix2 (0 : Fin 1) q)
      = V c main_v44 (ix2 (0 : Fin 1) (⟨((((cfg1.win 2).blk t).view.emb (ix2 p q)) 1).val, idx2_lt1 _⟩ : Fin 16)) := by
    show V c main_v44 (((cfg1.win 1).blk t).view.emb (ix2 (0 : Fin 1) q)) = _
    refine congrArg (V c main_v44) (funext fun a => Fin.ext ?_)
    match a with
    | ⟨0, _⟩ => show win1_1.index t (0 : Fin 2) * 1 + 1 * 0 = 0; omega
    | ⟨1, _⟩ => show win1_1.index t (1 : Fin 2) * 16 + 1 * q.val = win1_2.index t (1 : Fin 2) * 16 + 1 * q.val; omega
  rw [h0, h1]
  rfl

/-- An index of the array is in point t's block iff each coordinate is in the block's range on its axis. -/
theorem mem_blk (t : Fin cfg1.N) (i : S100000x16.Idx) :
    i ∈ ((cfg1.win 2).blk t).view.set ↔ ∀ a : Fin 2, win1_2.index t a * S5000x16.size a ≤ (i a).val ∧ (i a).val < win1_2.index t a * S5000x16.size a + S5000x16.size a := by
  show i ∈ ((View.whole main_v45).slice (win1_2.rect t)).set ↔ _
  rw [View.set_slice_whole, Rect.mem_set_unit]
  exact Iff.rfl

/-- Row r lies in the block of point r / 5000. -/
theorem cover (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  have hN : cfg1.N = 20 := N_1
  let t : Fin cfg1.N := ⟨(i 0).val / 5000, by rw [hN]; omega⟩
  have ht : t.val = (i 0).val / 5000 := rfl
  obtain ⟨e0, e1, e2, e3, e4, e5⟩ := idx_facts t
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 16 ≤ (i 1).val ∧ (i 1).val < win1_2.index t (1 : Fin 2) * 16 + 16; omega

/-- The output array after the run. -/
theorem final (c : Dev nD) : (dat1 V c).arrAt 2 cfg1.N = G (V c main_v43) (V c main_v44) :=
  (dat1 V c).arrAt_eq_of_cover 2 (G (V c main_v43) (V c main_v44)) (fun t _ => flushed_eq V c t) (cover)

end Cert.KernelIdeal.Relu

end
-- ==== Proof.Rows.lean ====
/-
  Rows of eight entries: their maximum and their log-softmax, and two layout readings for a column kept as an axis
  of size one.

  A row's maximum is taken from the printed least value (the word 0xFF800000) upwards, so a further maximum with
  that value changes nothing. The log-softmax of a row z at entry q is  (z q - max z) - log (sum over k of
  exp (z k - max z)).
-/
import Idealize.ShloMosaic.Lib.Pipeline.Value
import Idealize.ShloMosaic.Lib.ValueIdx
import Idealize.ShloMosaic.Lib.ValueLayout
import Idealize.ShloMosaic.PureOps.Ideal.Laws
import Mathlib.Data.Finset.Fold

noncomputable section

namespace Cert.Rows

open Idealize.ShloMosaic Idealize.ShloMosaic.ValueIdx

/-- An `[a]` array cast to `[a, 1]` reads, at `(p, u)`, the operand at `p`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An `[a, 1]` array broadcast to `[a, b]` reads, at `(p, c)`, the operand's one entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The largest entry of a row, from the printed least value. -/
def rowMax (z : Fin 8 → EReal) : EReal :=
  (Finset.univ : Finset (Fin 8)).fold max (Ideal.ofBits .f32 0xFF800000#32) z

/-- A further maximum with the least value changes nothing: the fold already starts from it. -/
theorem max_rowMax (z : Fin 8 → EReal) : max (Ideal.ofBits .f32 0xFF800000#32) (rowMax z) = rowMax z :=
  max_eq_right ((Finset.le_fold_max _).mpr (Or.inl le_rfl))

/-- The log-softmax of a row at entry `q`. -/
def rowLS (z : Fin 8 → EReal) (q : Fin 8) : EReal :=
  (z q - rowMax z) - Ideal.log (∑ k : Fin 8, Ideal.exp (z k - rowMax z))

end Cert.Rows

end
-- ==== Proof.RegionLS.lean ====
/-
  The bias-and-log-softmax region: what its output array holds after the run.

  The grid has 20 points; point t works on rows 5000 t … 5000 t + 4999 of a [100000, 8] array and on the whole
  [1, 8] bias row. Its body adds the bias to every row, z = x + b, and stores at (p, q) of the block
  (z (p, q) - m p) - log (sum over k of exp (z (p, k) - m p)),  m p the largest entry of row p: the log-softmax of
  row p at q. A row is reduced inside its own block only, and every row of the array lies in exactly one point's
  block, so after the run the output array holds, at (r, q), the log-softmax at q of row r of the first array plus
  the bias row.
-/
import proofs.«156959_j16501264351680_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«156959_j16501264351680_1_alg».proof.Proof.Rows

set_option maxRecDepth 16384

noncomputable section

namespace Cert.KernelIdeal.LogSoftmax

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Rows

-- the tensor core's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- Entry (r, q) of the result: the log-softmax at q of row r of the first array plus the bias row. -/
def G (a : (⟨2, ![100000, 8]⟩ : Shape).Idx → EReal) (b : (⟨2, ![1, 8]⟩ : Shape).Idx → EReal) :
    (⟨2, ![100000, 8]⟩ : Shape).Idx → EReal :=
  fun i => rowLS (fun k => a (ix2 (⟨(i 0).val, idx2_lt0 i⟩ : Fin 100000) k) + b (ix2 (0 : Fin 1) k)) (⟨(i 1).val, idx2_lt1 i⟩ : Fin 8)

/-- Row p of a block with the column coordinate k put back is the entry (p, k). -/
theorem lift1 (p : Fin 5000) (k : Fin (S5000x8.size 1)) :
    reduces_S5000x8_S5000.lift (ix1 p) k = ix2 p (⟨k.val, k.isLt⟩ : Fin 8) := by
  funext c; apply Fin.ext; fin_cases c <;> rfl

/-- A block's row maxima, kept as a column. -/
def rowMaxBlk (z : FVec Ideal S5000x8 .f32) : FVec Ideal S5000x1 .f32 :=
  shapeCast S5000x1 (multiReduction .maximumf [1] S5000 z 0xFF800000#32 reduces_S5000x8_S5000 (.inl rfl) rfl) shapeCasts_S5000_S5000x1

theorem rowMaxBlk_apply (z : FVec Ideal S5000x8 .f32) (p : Fin 5000) :
    rowMaxBlk z (ix2 p (0 : Fin 1)) = rowMax (fun k => z (ix2 p k)) := by
  unfold rowMaxBlk
  refine (shapeCast_a_a1_apply _ shapeCasts_S5000_S5000x1 p 0).trans ?_
  refine (Ideal.multiReduction_maximumf_single z 0xFF800000#32 reduces_S5000x8_S5000 (.inl rfl) rfl (ix1 p)).trans ?_
  have hfun : (z ∘ reduces_S5000x8_S5000.lift (ix1 p)) = fun k => z (ix2 p (⟨k.val, k.isLt⟩ : Fin 8)) :=
    funext fun k => congrArg z (lift1 p k)
  rw [hfun]
  rfl

/-- A block's row sums, kept as a column. -/
def rowSumBlk (y : FVec Ideal S5000x8 .f32) : FVec Ideal S5000x1 .f32 :=
  shapeCast S5000x1 (multiReduction .add [1] S5000 y 0x00000000#32 reduces_S5000x8_S5000 (.inl rfl) rfl) shapeCasts_S5000_S5000x1

theorem rowSumBlk_apply (y : FVec Ideal S5000x8 .f32) (p : Fin 5000) :
    rowSumBlk y (ix2 p (0 : Fin 1)) = ∑ k : Fin 8, y (ix2 p k) := by
  unfold rowSumBlk
  refine (shapeCast_a_a1_apply _ shapeCasts_S5000_S5000x1 p 0).trans ?_
  refine (Ideal.multiReduction_add_single y 0x00000000#32 reduces_S5000x8_S5000 (.inl rfl) rfl (ix1 p)).trans ?_
  simp only [lift1]
  rfl

/-- A block less its row maxima. -/
def shiftedBlk (z : FVec Ideal S5000x8 .f32) : FVec Ideal S5000x8 .f32 :=
  subf z (broadcastTo S5000x8 (rowMaxBlk z) broadcasts_S5000x1_S5000x8)

theorem shiftedBlk_apply (z : FVec Ideal S5000x8 .f32) (p : Fin 5000) (k : Fin 8) :
    shiftedBlk z (ix2 p k) = z (ix2 p k) - rowMax (fun k => z (ix2 p k)) := by
  show z (ix2 p k) - broadcastTo S5000x8 (rowMaxBlk z) broadcasts_S5000x1_S5000x8 (ix2 p k) = _
  rw [broadcastTo_a1_ab_apply, rowMaxBlk_apply]

/-- The body's stored block, over the biased block z. -/
theorem pay_eq (x0 : FVec Ideal S5000x8 .f32) (x1 : FVec Ideal S1x8 .f32) :
    k3_pay1 (F := Ideal) x0 x1 = subf (shiftedBlk (addf x0 (broadcastTo S5000x8 x1 broadcasts_S1x8_S5000x8)))
      (broadcastTo S5000x8 (log (rowSumBlk (exp (shiftedBlk (addf x0 (broadcastTo S5000x8 x1 broadcasts_S1x8_S5000x8))))))
        broadcasts_S5000x1_S5000x8) := by
  unfold k3_pay1 shiftedBlk rowSumBlk rowMaxBlk
  simp only [shapeCast_self]

/-- The body's stored value at entry (p, q) of a block. -/
theorem pay_apply (x0 : FVec Ideal S5000x8 .f32) (x1 : FVec Ideal S1x8 .f32) (p : Fin 5000) (q : Fin 8) :
    k3_pay1 (F := Ideal) x0 x1 (ix2 p q) = rowLS (fun k => x0 (ix2 p k) + x1 (ix2 (0 : Fin 1) k)) q := by
  have hz : ∀ k : Fin 8, addf x0 (broadcastTo S5000x8 x1 broadcasts_S1x8_S5000x8) (ix2 p k) = x0 (ix2 p k) + x1 (ix2 (0 : Fin 1) k) := fun k => by
    show x0 (ix2 p k) + broadcastTo S5000x8 x1 broadcasts_S1x8_S5000x8 (ix2 p k) = _
    rw [broadcastTo_1b_ab_apply]
  rw [pay_eq]
  generalize addf x0 (broadcastTo S5000x8 x1 broadcasts_S1x8_S5000x8) = z at hz
  show shiftedBlk z (ix2 p q) - broadcastTo S5000x8 (log (rowSumBlk (exp (shiftedBlk z)))) broadcasts_S5000x1_S5000x8 (ix2 p q) = _
  rw [broadcastTo_a1_ab_apply]
  show shiftedBlk z (ix2 p q) - Ideal.log (rowSumBlk (exp (shiftedBlk z)) (ix2 p (0 : Fin 1))) = _
  rw [rowSumBlk_apply]
  show shiftedBlk z (ix2 p q) - Ideal.log (∑ k : Fin 8, Ideal.exp (shiftedBlk z (ix2 p k))) = _
  simp only [shiftedBlk_apply, hz]
  rfl

/-- The printed index maps over the grid: the row windows are at block t, the bias window at block 0. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of G of the arrays the region found. -/
theorem flushed_eq (c : Dev nD) (t : Fin cfg3.N) :
    (dat3 V c).flushed 2 t = ((cfg3.win 2).blk t).view.read (Elt Ideal) (G (V c main_v59) (V c main_v60)) := by
  show (cfg3.win 2).cut (grid3.coords t) ((dat3 V c).after 2 t) = _
  rw [after3_2]
  unfold out3_2
  rw [View.canon_unit_zero hz]
  simp only [View.ld_unit_zero (S := S5000x8) hz, View.ld_unit_zero (S := S1x8) hz]
  obtain ⟨e0, e1, e2, e3, e4, e5⟩ := idx_facts t
  funext j
  obtain ⟨p, q, rfl⟩ : ∃ (p : Fin 5000) (q : Fin 8), j = ix2 p q := ⟨j 0, j 1, eq_ix2 j⟩
  show k3_pay1 (iblk3 V c 0 t) (iblk3 V c 1 t) (ix2 p q) = G (V c main_v59) (V c main_v60) (((cfg3.win 2).blk t).view.emb (ix2 p q))
  rw [pay_apply (iblk3 V c 0 t) (iblk3 V c 1 t) p q]
  have h0 : ∀ k : Fin 8, iblk3 V c 0 t (ix2 p k)
      = V c main_v59 (ix2 (⟨((((cfg3.win 2).blk t).view.emb (ix2 p q)) 0).val, idx2_lt0 _⟩ : Fin 100000) k) := fun k => by
    show V c main_v59 (((cfg3.win 0).blk t).view.emb (ix2 p k)) = _
    refine congrArg (V c main_v59) (funext fun a => Fin.ext ?_)
    match a with
    | ⟨0, _⟩ => show win3_0.index t (0 : Fin 2) * 5000 + 1 * p.val = win3_2.index t (0 : Fin 2) * 5000 + 1 * p.val; omega
    | ⟨1, _⟩ => show win3_0.index t (1 : Fin 2) * 8 + 1 * k.val = k.val; omega
  have h1 : ∀ k : Fin 8, iblk3 V c 1 t (ix2 (0 : Fin 1) k) = V c main_v60 (ix2 (0 : Fin 1) k) := fun k => by
    show V c main_v60 (((cfg3.win 1).blk t).view.emb (ix2 (0 : Fin 1) k)) = _
    refine congrArg (V c main_v60) (funext fun a => Fin.ext ?_)
    match a with
    | ⟨0, _⟩ => show win3_1.index t (0 : Fin 2) * 1 + 1 * 0 = 0; omega
    | ⟨1, _⟩ => show win3_1.index t (1 : Fin 2) * 8 + 1 * k.val = k.val; omega
  have hq : q = (⟨((((cfg3.win 2).blk t).view.emb (ix2 p q)) 1).val, idx2_lt1 _⟩ : Fin 8) := Fin.ext (by
    show q.val = win3_2.index t (1 : Fin 2) * 8 + 1 * q.val; omega)
  simp only [h0, h1]
  show rowLS _ q = rowLS _ _
  rw [← hq]

/-- An index of the array is in point t's block iff each coordinate is in the block's range on its axis. -/
theorem mem_blk (t : Fin cfg3.N) (i : S100000x8.Idx) :
    i ∈ ((cfg3.win 2).blk t).view.set ↔ ∀ a : Fin 2, win3_2.index t a * S5000x8.size a ≤ (i a).val ∧ (i a).val < win3_2.index t a * S5000x8.size a + S5000x8.size a := by
  show i ∈ ((View.whole main_v61).slice (win3_2.rect t)).set ↔ _
  rw [View.set_slice_whole, Rect.mem_set_unit]
  exact Iff.rfl

/-- Row r lies in the block of point r / 5000. -/
theorem cover (i : S100000x8.Idx) : ∃ t : Fin cfg3.N, (cfg3.win 2).flush t = true ∧ i ∈ ((cfg3.win 2).blk t).view.set := by
  have hi0 : (i 0).val < 100000 := (i 0).isLt
  have hi1 : (i 1).val < 8 := (i 1).isLt
  have hN : cfg3.N = 20 := N_3
  let t : Fin cfg3.N := ⟨(i 0).val / 5000, by rw [hN]; omega⟩
  have ht : t.val = (i 0).val / 5000 := rfl
  obtain ⟨e0, e1, e2, e3, e4, e5⟩ := idx_facts t
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 8 ≤ (i 1).val ∧ (i 1).val < win3_2.index t (1 : Fin 2) * 8 + 8; omega

/-- The output array after the run. -/
theorem final (c : Dev nD) : (dat3 V c).arrAt 2 cfg3.N = G (V c main_v59) (V c main_v60) :=
  (dat3 V c).arrAt_eq_of_cover 2 (G (V c main_v59) (V c main_v60)) (fun t _ => flushed_eq V c t) (cover)

end Cert.KernelIdeal.LogSoftmax

end
-- ==== Proof.Bridge.lean ====
/-
  The regions' whole-array functions are the reference's pieces, over the extended reals.

  Both products are the same sum over k of the left operand's (r, k) times the right operand's (k, q). The bias
  reaches the kernel as a [1, n] row and the reference as a broadcast of the [n] vector: at (r, q) both read entry q.
  The reference's row maximum is a fold of max from the least value, followed by one more maximum with that value,
  which changes nothing; its row sum starts from zero. So at every entry the reference's log-softmax is the row's
  log-softmax the kernel computes.
-/
import proofs.«156959_j16501264351680_1_alg».proof.Proof.SpecDefs
import proofs.«156959_j16501264351680_1_alg».proof.Proof.RegionMM0
import proofs.«156959_j16501264351680_1_alg».proof.Proof.RegionMM2
import proofs.«156959_j16501264351680_1_alg».proof.Proof.RegionRelu
import proofs.«156959_j16501264351680_1_alg».proof.Proof.RegionLS
import Idealize.ShloMosaic.Lib.ReduceAll

set_option maxRecDepth 16384

noncomputable section

namespace Cert.Bridge

open Idealize.ShloMosaic Idealize.ShloMosaic.ValueIdx
open Cert.Gcn Cert.Rows

/-- The first product. -/
theorem dot1_eq (x : (⟨2, ![100000, 256]⟩ : Shape).Idx → EReal) (w : (⟨2, ![256, 16]⟩ : Shape).Idx → EReal) :
    dot1 (F := Ideal) x w = Cert.KernelIdeal.MatMul0.G x w := by
  funext i
  obtain ⟨r, q, rfl⟩ : ∃ (r : Fin 100000) (q : Fin 16), i = ix2 r q := ⟨i 0, i 1, eq_ix2 i⟩
  exact Cert.Lib.PlainDot.dotGeneral_apply (M := 100000) (K := 256) (N := 16) none .single x w r q

/-- The second product. -/
theorem dot2_eq (h : (⟨2, ![100000, 16]⟩ : Shape).Idx → EReal) (w : (⟨2, ![16, 8]⟩ : Shape).Idx → EReal) :
    dot2 (F := Ideal) h w = Cert.KernelIdeal.MatMul2.G h w := by
  funext i
  obtain ⟨r, q, rfl⟩ : ∃ (r : Fin 100000) (q : Fin 8), i = ix2 r q := ⟨i 0, i 1, eq_ix2 i⟩
  exact Cert.Lib.PlainDot.dotGeneral_apply (M := 100000) (K := 16) (N := 8) none .single h w r q

/-- A zero-rank constant broadcast to every entry reads the constant's value. -/
theorem bcastConst {s : Shape} (h : (⟨0, ![]⟩ : Shape).BroadcastsInDim s ![]) (w : BitVec 32) (i : s.Idx) :
    broadcastInDim s ![] h (constant (F := Ideal) (⟨0, ![]⟩ : Shape) .f32 w) i = Ideal.ofBits .f32 w :=
  broadcastInDim_apply _ h _ i ix0 (fun a => a.elim0)

/-- The bias vector broadcast over the rows of a [100000, 16] array reads, at (r, q), its entry q. -/
theorem biasRow16 (b : (⟨1, ![16]⟩ : Shape).Idx → EReal) (r : Fin 100000) (q : Fin 16) :
    broadcastInDim Cert.ReferenceIdeal.S100000x16 ![0, 1] Cert.ReferenceIdeal.Facts₀.bcast_S1x16_S100000x16_0_1
      (broadcastInDim Cert.ReferenceIdeal.S1x16 ![1] Cert.ReferenceIdeal.Facts₀.bcast_S16_S1x16_1 b) (ix2 r q) = b (ix1 q) := by
  refine (broadcastInDim_apply _ Cert.ReferenceIdeal.Facts₀.bcast_S1x16_S100000x16_0_1 _ (ix2 r q) (ix2 (0 : Fin 1) q) (fun a => match a with
    | ⟨0, _⟩ => by show 0 = if (1 : Nat) = 1 then 0 else r.val; rw [if_pos rfl]
    | ⟨1, _⟩ => by show q.val = if (16 : Nat) = 1 then 0 else q.val; rw [if_neg (by decide)])).trans ?_
  exact broadcastInDim_apply _ Cert.ReferenceIdeal.Facts₀.bcast_S16_S1x16_1 b (ix2 (0 : Fin 1) q) (ix1 q) (fun a => match a with
    | ⟨0, _⟩ => by show q.val = if (16 : Nat) = 1 then 0 else q.val; rw [if_neg (by decide)])

/-- The bias vector broadcast over the rows of a [100000, 8] array reads, at (r, q), its entry q. -/
theorem biasRow8 (b : (⟨1, ![8]⟩ : Shape).Idx → EReal) (r : Fin 100000) (q : Fin 8) :
    broadcastInDim Cert.ReferenceIdeal.S100000x8 ![0, 1] Cert.ReferenceIdeal.Facts₀.bcast_S1x8_S100000x8_0_1
      (broadcastInDim Cert.ReferenceIdeal.S1x8 ![1] Cert.ReferenceIdeal.Facts₀.bcast_S8_S1x8_1 b) (ix2 r q) = b (ix1 q) := by
  refine (broadcastInDim_apply _ Cert.ReferenceIdeal.Facts₀.bcast_S1x8_S100000x8_0_1 _ (ix2 r q) (ix2 (0 : Fin 1) q) (fun a => match a with
    | ⟨0, _⟩ => by show 0 = if (1 : Nat) = 1 then 0 else r.val; rw [if_pos rfl]
    | ⟨1, _⟩ => by show q.val = if (8 : Nat) = 1 then 0 else q.val; rw [if_neg (by decide)])).trans ?_
  exact broadcastInDim_apply _ Cert.ReferenceIdeal.Facts₀.bcast_S8_S1x8_1 b (ix2 (0 : Fin 1) q) (ix1 q) (fun a => match a with
    | ⟨0, _⟩ => by show q.val = if (8 : Nat) = 1 then 0 else q.val; rw [if_neg (by decide)])

/-- Layer one's activation. -/
theorem biasRelu_eq (a : (⟨2, ![100000, 16]⟩ : Shape).Idx → EReal) (b : (⟨1, ![16]⟩ : Shape).Idx → EReal) :
    biasRelu (F := Ideal) a b
      = Cert.KernelIdeal.Relu.G a (shapeCast Cert.KernelIdeal.S1x16 b Cert.KernelIdeal.Facts₀.shapeCasts_S16_S1x16) := by
  funext i
  obtain ⟨r, q, rfl⟩ : ∃ (r : Fin 100000) (q : Fin 16), i = ix2 r q := ⟨i 0, i 1, eq_ix2 i⟩
  unfold biasRelu
  show max (a (ix2 r q) + broadcastInDim Cert.ReferenceIdeal.S100000x16 ![0, 1] Cert.ReferenceIdeal.Facts₀.bcast_S1x16_S100000x16_0_1
        (broadcastInDim Cert.ReferenceIdeal.S1x16 ![1] Cert.ReferenceIdeal.Facts₀.bcast_S16_S1x16_1 b) (ix2 r q))
      (broadcastInDim Cert.ReferenceIdeal.S100000x16 ![] Cert.ReferenceIdeal.Facts₀.bcast_S_S100000x16 (constant (F := Ideal) Cert.ReferenceIdeal.S_ .f32 0x00000000#32) (ix2 r q))
    = max (a (ix2 r q) + shapeCast Cert.KernelIdeal.S1x16 b Cert.KernelIdeal.Facts₀.shapeCasts_S16_S1x16 (ix2 (0 : Fin 1) q)) (Ideal.ofBits .f32 0x00000000#32)
  rw [biasRow16, bcastConst, shapeCast_a_1a_apply]

/-- A column kept as an axis of size one and broadcast back over the eight columns reads, at (r, k), the column's entry r. -/
theorem colBcast {α : Type} (v : (⟨1, ![100000]⟩ : Shape).Idx → α) (r : Fin 100000) (k : Fin 8) :
    broadcastInDim Cert.ReferenceIdeal.S100000x8 ![0, 1] Cert.ReferenceIdeal.Facts₀.bcast_S100000x1_S100000x8_0_1
      (broadcastInDim Cert.ReferenceIdeal.S100000x1 ![0] Cert.ReferenceIdeal.Facts₀.bcast_S100000_S100000x1_0 v) (ix2 r k) = v (ix1 r) := by
  refine (broadcastInDim_apply _ Cert.ReferenceIdeal.Facts₀.bcast_S100000x1_S100000x8_0_1 _ (ix2 r k) (ix2 r (0 : Fin 1)) (fun a => match a with
    | ⟨0, _⟩ => by show r.val = if (100000 : Nat) = 1 then 0 else r.val; rw [if_neg (by decide)]
    | ⟨1, _⟩ => by show 0 = if (1 : Nat) = 1 then 0 else k.val; rw [if_pos rfl])).trans ?_
  exact broadcastInDim_apply _ Cert.ReferenceIdeal.Facts₀.bcast_S100000_S100000x1_0 v (ix2 r (0 : Fin 1)) (ix1 r) (fun a => match a with
    | ⟨0, _⟩ => by show r.val = if (100000 : Nat) = 1 then 0 else r.val; rw [if_neg (by decide)])

/-- The same for a column to which the logarithm was applied entry by entry between the two broadcasts. -/
theorem colBcastLog (v : FVec Ideal Cert.ReferenceIdeal.S100000 .f32) (r : Fin 100000) (k : Fin 8) :
    broadcastInDim Cert.ReferenceIdeal.S100000x8 ![0, 1] Cert.ReferenceIdeal.Facts₀.bcast_S100000x1_S100000x8_0_1
      (Host.log (F := Ideal) (φ := .f32) (broadcastInDim Cert.ReferenceIdeal.S100000x1 ![0] Cert.ReferenceIdeal.Facts₀.bcast_S100000_S100000x1_0 v)) (ix2 r k)
      = Ideal.log (v (ix1 r)) := by
  refine (broadcastInDim_apply _ Cert.ReferenceIdeal.Facts₀.bcast_S100000x1_S100000x8_0_1 _ (ix2 r k) (ix2 r (0 : Fin 1)) (fun a => match a with
    | ⟨0, _⟩ => by show r.val = if (100000 : Nat) = 1 then 0 else r.val; rw [if_neg (by decide)]
    | ⟨1, _⟩ => by show 0 = if (1 : Nat) = 1 then 0 else k.val; rw [if_pos rfl])).trans ?_
  show Ideal.log (broadcastInDim Cert.ReferenceIdeal.S100000x1 ![0] Cert.ReferenceIdeal.Facts₀.bcast_S100000_S100000x1_0 v (ix2 r (0 : Fin 1))) = _
  refine congrArg Ideal.log ?_
  exact broadcastInDim_apply _ Cert.ReferenceIdeal.Facts₀.bcast_S100000_S100000x1_0 v (ix2 r (0 : Fin 1)) (ix1 r) (fun a => match a with
    | ⟨0, _⟩ => by show r.val = if (100000 : Nat) = 1 then 0 else r.val; rw [if_neg (by decide)])

/-- Row r of the array with the column coordinate k put back is the entry (r, k). -/
theorem liftRow (h : Cert.ReferenceIdeal.S100000x8.Reduces [1] Cert.ReferenceIdeal.S100000) (r : Fin 100000)
    (k : Fin (Cert.ReferenceIdeal.S100000x8.size 1)) : h.lift (ix1 r) k = ix2 r (⟨k.val, k.isLt⟩ : Fin 8) := by
  funext c; apply Fin.ext; fin_cases c <;> rfl

/-- The reference's row maximum: the fold of max over the row from the least value. -/
theorem rowMaxRef (z : FVec Ideal Cert.ReferenceIdeal.S100000x8 .f32) (r : Fin 100000) :
    Host.reduce (FloatOps.maximumf (F := Ideal) (φ := .f32)) z (constant (F := Ideal) Cert.ReferenceIdeal.S_ .f32 0xFF800000#32)
      Cert.ReferenceIdeal.Facts₀.reducesTo_S100000x8_S100000_d1 Cert.ReferenceIdeal.Facts₀.h_S_ (ix1 r) = rowMax (fun k => z (ix2 r k)) := by
  have h : Cert.ReferenceIdeal.S100000x8.Reduces [1] Cert.ReferenceIdeal.S100000 := by decide
  refine (Host.reduce_eq_fold_single (FloatOps.maximumf (F := Ideal) (φ := .f32)) z
    (constant (F := Ideal) Cert.ReferenceIdeal.S_ .f32 0xFF800000#32) Cert.ReferenceIdeal.Facts₀.reducesTo_S100000x8_S100000_d1 h Cert.ReferenceIdeal.Facts₀.h_S_ (ix1 r)).trans ?_
  have hfun : (z ∘ h.lift (ix1 r)) = fun k => z (ix2 r (⟨k.val, k.isLt⟩ : Fin 8)) := funext fun k => congrArg z (liftRow h r k)
  rw [hfun]
  rfl

/-- The reference's row sum, from zero. -/
theorem rowSumRef (y : FVec Ideal Cert.ReferenceIdeal.S100000x8 .f32) (r : Fin 100000) :
    Host.reduceAdd (F := Ideal) y (constant (F := Ideal) Cert.ReferenceIdeal.S_ .f32 0x00000000#32)
      Cert.ReferenceIdeal.Facts₀.reducesTo_S100000x8_S100000_d1 Cert.ReferenceIdeal.Facts₀.h_S_ (ix1 r) = ∑ k : Fin 8, y (ix2 r k) := by
  have h : Cert.ReferenceIdeal.S100000x8.Reduces [1] Cert.ReferenceIdeal.S100000 := by decide
  simp only [Host.reduceAdd, Ideal.hostReduceAdd_def]
  rw [Ideal.hostReduceAdd_single Cert.ReferenceIdeal.Facts₀.reducesTo_S100000x8_S100000_d1 h]
  show Ideal.ofBits .f32 0x00000000#32 + _ = _
  rw [Ideal.ofBits_zero_f32, zero_add]
  simp only [liftRow]
  rfl

/-- The reference's shifted array at (r, k): the entry less its row's maximum. -/
theorem shifted_apply (z : FVec Ideal Cert.ReferenceIdeal.S100000x8 .f32) (r : Fin 100000) (k : Fin 8) :
    shifted (F := Ideal) z (ix2 r k) = z (ix2 r k) - rowMax (fun k => z (ix2 r k)) := by
  unfold shifted
  rw [subf_apply, colBcast, maximumf_apply, bcastConst, rowMaxRef, max_rowMax]

/-- The reference's log-softmax at (r, q) is the row's. -/
theorem logSoftmax_apply (z : FVec Ideal Cert.ReferenceIdeal.S100000x8 .f32) (r : Fin 100000) (q : Fin 8) :
    logSoftmax (F := Ideal) z (ix2 r q) = rowLS (fun k => z (ix2 r k)) q := by
  unfold logSoftmax
  rw [subf_apply, colBcastLog, rowSumRef]
  simp only [Host.exp, shifted_apply]
  rfl

/-- Layer two's bias and the log-softmax. -/
theorem logSoftmax_eq (a : (⟨2, ![100000, 8]⟩ : Shape).Idx → EReal) (b : (⟨1, ![8]⟩ : Shape).Idx → EReal) :
    logSoftmax (F := Ideal) (bias8 (F := Ideal) a b)
      = Cert.KernelIdeal.LogSoftmax.G a (shapeCast Cert.KernelIdeal.S1x8 b Cert.KernelIdeal.Facts₀.shapeCasts_S8_S1x8) := by
  funext i
  obtain ⟨r, q, rfl⟩ : ∃ (r : Fin 100000) (q : Fin 8), i = ix2 r q := ⟨i 0, i 1, eq_ix2 i⟩
  rw [logSoftmax_apply]
  have hz : ∀ k : Fin 8, bias8 (F := Ideal) a b (ix2 r k)
      = a (ix2 r k) + shapeCast Cert.KernelIdeal.S1x8 b Cert.KernelIdeal.Facts₀.shapeCasts_S8_S1x8 (ix2 (0 : Fin 1) k) := fun k => by
    unfold bias8
    show a (ix2 r k) + broadcastInDim Cert.ReferenceIdeal.S100000x8 ![0, 1] Cert.ReferenceIdeal.Facts₀.bcast_S1x8_S100000x8_0_1
        (broadcastInDim Cert.ReferenceIdeal.S1x8 ![1] Cert.ReferenceIdeal.Facts₀.bcast_S8_S1x8_1 b) (ix2 r k) = _
    rw [biasRow8, shapeCast_a_1a_apply]
  simp only [hz]
  rfl

end Cert.Bridge

end
-- ==== Proof.KernelValue.lean ====
/-
  The kernel program's result, over the extended reals, is the two-layer graph convolution of its arguments.

  Region by region: the first region's output is the product of the features and the first weights; the stretch
  after it aggregates that over the edges; the second region adds the bias and takes the maximum with zero; the
  third multiplies by the second weights; the next stretch aggregates again; the last region adds the bias and takes
  the row-wise log-softmax. Each region's output array is its whole-array function of the arrays it found, each
  stretch's result the named function of the buffers before it, and the edge arrays are those computed before the
  first region.
-/
import proofs.«156959_j16501264351680_1_alg».proof.Proof.HostK
import proofs.«156959_j16501264351680_1_alg».proof.Proof.Bridge
import proofs.«156959_j16501264351680_1_alg».proof.Proof.KernelRun

set_option maxRecDepth 16384

noncomputable section

namespace Cert.KernelIdeal.KValue

open Cert.KernelIdeal Cert.KernelIdeal.Gen Cert.KernelIdeal.HostK Idealize.ShloMosaic Idealize.ShloMosaic.TcCoe Idealize.SL.Sem
open Cert.Gcn

variable (m : (ℓ : Loc nD τ sig) → Buf (Elt Ideal) ℓ) (ρ : Dev nD → PrngReg) (c : Dev nD)

/-- The first region's output: the first product. -/
theorem out0 : W4 m ρ c (Proc.devRef .tc main_v30) = dot1 (m ((c : Thread nD τ).loc main_arg0)) (m ((c : Thread nD τ).loc main_arg2)) := by
  rw [W4_out, MatMul0.final (V3 m ρ) c]
  show MatMul0.G (W3 m ρ c (Proc.devRef .tc main_arg0)) (W3 m ρ c (Proc.devRef .tc main_arg2)) = _
  rw [W3_arg0, W3_arg2, ← Cert.Bridge.dot1_eq]

/-- The second region's output: layer one. -/
theorem out1 : W6 m ρ c (Proc.devRef .tc main_v45) = (biasRelu (agg16 (dot1 (m ((c : Thread nD τ).loc main_arg0)) (m ((c : Thread nD τ).loc main_arg2))) (srcOf (m ((c : Thread nD τ).loc main_arg1))) (dstOf (m ((c : Thread nD τ).loc main_arg1))) (wOf (m ((c : Thread nD τ).loc main_arg1)))) (m ((c : Thread nD τ).loc main_arg3))) := by
  rw [W6_out, Relu.final (V5 m ρ) c]
  show Relu.G (W5 m ρ c (Proc.devRef .tc main_v43)) (W5 m ρ c (Proc.devRef .tc main_v44)) = _
  rw [W5_agg, W5_bias, out0, src4, dst4, w4, arg3_4, ← Cert.Bridge.biasRelu_eq]

/-- The third region's output: the second product. -/
theorem out2 : W7 m ρ c (Proc.devRef .tc main_v46) = dot2 (biasRelu (agg16 (dot1 (m ((c : Thread nD τ).loc main_arg0)) (m ((c : Thread nD τ).loc main_arg2))) (srcOf (m ((c : Thread nD τ).loc main_arg1))) (dstOf (m ((c : Thread nD τ).loc main_arg1))) (wOf (m ((c : Thread nD τ).loc main_arg1)))) (m ((c : Thread nD τ).loc main_arg3))) (m ((c : Thread nD τ).loc main_arg4)) := by
  rw [W7_out, MatMul2.final (V6 m ρ) c]
  show MatMul2.G (W6 m ρ c (Proc.devRef .tc main_v45)) (W6 m ρ c (Proc.devRef .tc main_arg4)) = _
  rw [out1, arg4_6, ← Cert.Bridge.dot2_eq]

/-- The last region's output: the whole computation. -/
theorem out3 : W9 m ρ c (Proc.devRef .tc main_v61) = gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [W9_out, LogSoftmax.final (V8 m ρ) c]
  show LogSoftmax.G (W8 m ρ c (Proc.devRef .tc main_v59)) (W8 m ρ c (Proc.devRef .tc main_v60)) = _
  rw [W8_agg, W8_bias, out2, src7, dst7, w7, arg5_7, ← Cert.Bridge.logSoftmax_eq]
  rfl

/-- Every weakly fair execution of the kernel program terminates, nothing faulting, with the result buffer at the
    graph convolution of the arguments and the arguments as launched. -/
theorem run : θ_run defs (onTc (τ := τ) (main (F := Ideal))) ⟨m, fun _ => 0, ρ⟩ (fun r => ∀ c : Dev nD,
      r.2.mem ((c.tc : Thread nD τ).loc main_v61) = gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (out3 m ρ c), (h c).2⟩) (run_result m ρ)

end Cert.KernelIdeal.KValue

end
-- ==== Proof.RefChunks.lean ====
/-
  The reference program's operations in four consecutive stretches, and the list as their concatenation.
-/
import proofs.«156959_j16501264351680_1_alg».proof.Proof.RefRunP

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- Operations 0 … 40: the first product, the edge list and the edge weights. -/
abbrev ops1 : List (HloOp τ sig (Elt F)) :=
  [ binary main_arg0 main_arg2 main_v0 ((fun l r => Host.dotGeneral dot_S100000x256_S256x16_S100000x16_1_0_0_1_n_n none l r) : (⟨S100000x256, .f32⟩ : BufTy).Contents (Elt F) → (⟨S256x16, .f32⟩ : BufTy).Contents (Elt F) → (⟨S100000x16, .f32⟩ : BufTy).Contents (Elt F)),
    nullary main_v1 (iotaInDim S100000 32 0),
    unary main_arg1 main_v2 ((extractStridedSlice S1x3200000 ![0, 0] · slices_S2x3200000_S1x3200000_0_0) : (⟨S2x3200000, .i32⟩ : BufTy).Contents (Elt F) → (⟨S1x3200000, .i32⟩ : BufTy).Contents (Elt F)),
    reshape main_v2 main_v3 rfl shapeCasts_S1x3200000_S3200000,
    binary main_v3 main_v1 main_v4 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v5 ((extractStridedSlice S1x3200000 ![1, 0] · slices_S2x3200000_S1x3200000_1_0) : (⟨S2x3200000, .i32⟩ : BufTy).Contents (Elt F) → (⟨S1x3200000, .i32⟩ : BufTy).Contents (Elt F)),
    reshape main_v5 main_v6 rfl shapeCasts_S1x3200000_S3200000,
    binary main_v6 main_v1 main_v7 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v8 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v4 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v4 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v4 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v23 (broadcastInDim S3300000 ![] bcast_S_S3300000 : (⟨S_, .i32⟩ : BufTy).Contents (Elt F) → (⟨S3300000, .i32⟩ : BufTy).Contents (Elt F)),
    binary main_v7 main_v23 main_v24 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v25 (broadcastInDim S3300000 ![] bcast_S_S3300000 : (⟨S_, .i32⟩ : BufTy).Contents (Elt F) → (⟨S3300000, .i32⟩ : BufTy).Contents (Elt F)),
    binary main_v7 main_v25 main_v26 (addi : (⟨S3300000, .i32⟩ : BufTy).Contents (Elt F) → (⟨S3300000, .i32⟩ : BufTy).Contents (Elt F) → (⟨S3300000, .i32⟩ : BufTy).Contents (Elt F)),
    ternary main_v24 main_v26 main_v7 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v27 main_v28 (broadcastInDim S3300000x1 ![0] bcast_S3300000_S3300000x1_0 : (⟨S3300000, .i32⟩ : BufTy).Contents (Elt F) → (⟨S3300000x1, .i32⟩ : BufTy).Contents (Elt F)),
    binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v29 main_v30 (mulf : (⟨S3300000, .f32⟩ : BufTy).Contents (Elt F) → (⟨S3300000, .f32⟩ : BufTy).Contents (Elt F) → (⟨S3300000, .f32⟩ : BufTy).Contents (Elt F)) ]

/-- Operations 41 … 62: layer one: aggregation, bias, maximum with zero. -/
abbrev ops2 : List (HloOp τ sig (Elt F)) :=
  [ nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v4 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v4 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v4 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v0 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v30 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v7 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf ]

/-- Operations 63 … 103: the second product, the edge list and the edge weights again. -/
abbrev ops3 : List (HloOp τ sig (Elt F)) :=
  [ binary main_v47 main_arg4 main_v48 ((fun l r => Host.dotGeneral dot_S100000x16_S16x8_S100000x8_1_0_0_1_n_n none l r) : (⟨S100000x16, .f32⟩ : BufTy).Contents (Elt F) → (⟨S16x8, .f32⟩ : BufTy).Contents (Elt F) → (⟨S100000x8, .f32⟩ : BufTy).Contents (Elt F)),
    nullary main_v49 (iotaInDim S100000 32 0),
    unary main_arg1 main_v50 ((extractStridedSlice S1x3200000 ![0, 0] · slices_S2x3200000_S1x3200000_0_0) : (⟨S2x3200000, .i32⟩ : BufTy).Contents (Elt F) → (⟨S1x3200000, .i32⟩ : BufTy).Contents (Elt F)),
    reshape main_v50 main_v51 rfl shapeCasts_S1x3200000_S3200000,
    binary main_v51 main_v49 main_v52 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v53 ((extractStridedSlice S1x3200000 ![1, 0] · slices_S2x3200000_S1x3200000_1_0) : (⟨S2x3200000, .i32⟩ : BufTy).Contents (Elt F) → (⟨S1x3200000, .i32⟩ : BufTy).Contents (Elt F)),
    reshape main_v53 main_v54 rfl shapeCasts_S1x3200000_S3200000,
    binary main_v54 main_v49 main_v55 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst_9 (constant S_ .f32 0x3F800000#32),
    unary main_cst_9 main_v56 (broadcastInDim S3300000 ![] bcast_S_S3300000 : (⟨S_, .f32⟩ : BufTy).Contents (Elt F) → (⟨S3300000, .f32⟩ : BufTy).Contents (Elt F)),
    nullary main_cst_10 (constant S_ .f32 0x00000000#32),
    unary main_cst_10 main_v57 (broadcastInDim S100000 ![] bcast_S_S100000 : (⟨S_, .f32⟩ : BufTy).Contents (Elt F) → (⟨S100000, .f32⟩ : BufTy).Contents (Elt F)),
    unary main_v55 main_v58 (broadcastInDim S3300000x1 ![0] bcast_S3300000_S3300000x1_0 : (⟨S3300000, .i32⟩ : BufTy).Contents (Elt F) → (⟨S3300000x1, .i32⟩ : BufTy).Contents (Elt F)),
    ternary main_v57 main_v58 main_v56 main_v59 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_11 (constant S_ .f32 0x00000000#32),
    unary main_cst_11 main_v60 (broadcastInDim S100000 ![] bcast_S_S100000 : (⟨S_, .f32⟩ : BufTy).Contents (Elt F) → (⟨S100000, .f32⟩ : BufTy).Contents (Elt F)),
    binary main_v59 main_v60 main_v61 (cmpf .ogt : (⟨S100000, .f32⟩ : BufTy).Contents (Elt F) → (⟨S100000, .f32⟩ : BufTy).Contents (Elt F) → (⟨S100000, .i1⟩ : BufTy).Contents (Elt F)),
    unary main_v59 main_v62 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v61) (TRef.of (T := ⟨S100000, .f32⟩) main_v62) (TRef.of (T := ⟨S100000, .f32⟩) main_call2_v1) (TRef.of (T := ⟨S100000, .f32⟩) main_v63) select,
    nullary main_c_13 (constantI S_ 32 0#32),
    unary main_c_13 main_v64 (broadcastInDim S3300000 ![] bcast_S_S3300000 : (⟨S_, .i32⟩ : BufTy).Contents (Elt F) → (⟨S3300000, .i32⟩ : BufTy).Contents (Elt F)),
    binary main_v52 main_v64 main_v65 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v66 (broadcastInDim S3300000 ![] bcast_S_S3300000 : (⟨S_, .i32⟩ : BufTy).Contents (Elt F) → (⟨S3300000, .i32⟩ : BufTy).Contents (Elt F)),
    binary main_v52 main_v66 main_v67 (addi : (⟨S3300000, .i32⟩ : BufTy).Contents (Elt F) → (⟨S3300000, .i32⟩ : BufTy).Contents (Elt F) → (⟨S3300000, .i32⟩ : BufTy).Contents (Elt F)),
    ternary main_v65 main_v67 main_v52 main_v68 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v68 main_v69 (broadcastInDim S3300000x1 ![0] bcast_S3300000_S3300000x1_0 : (⟨S3300000, .i32⟩ : BufTy).Contents (Elt F) → (⟨S3300000x1, .i32⟩ : BufTy).Contents (Elt F)),
    binary main_v63 main_v69 main_v70 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_15 (constantI S_ 32 0#32),
    unary main_c_15 main_v71 (broadcastInDim S3300000 ![] bcast_S_S3300000 : (⟨S_, .i32⟩ : BufTy).Contents (Elt F) → (⟨S3300000, .i32⟩ : BufTy).Contents (Elt F)),
    binary main_v55 main_v71 main_v72 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v73 (broadcastInDim S3300000 ![] bcast_S_S3300000 : (⟨S_, .i32⟩ : BufTy).Contents (Elt F) → (⟨S3300000, .i32⟩ : BufTy).Contents (Elt F)),
    binary main_v55 main_v73 main_v74 (addi : (⟨S3300000, .i32⟩ : BufTy).Contents (Elt F) → (⟨S3300000, .i32⟩ : BufTy).Contents (Elt F) → (⟨S3300000, .i32⟩ : BufTy).Contents (Elt F)),
    ternary main_v72 main_v74 main_v55 main_v75 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v75 main_v76 (broadcastInDim S3300000x1 ![0] bcast_S3300000_S3300000x1_0 : (⟨S3300000, .i32⟩ : BufTy).Contents (Elt F) → (⟨S3300000x1, .i32⟩ : BufTy).Contents (Elt F)),
    binary main_v63 main_v76 main_v77 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v70 main_v77 main_v78 (mulf : (⟨S3300000, .f32⟩ : BufTy).Contents (Elt F) → (⟨S3300000, .f32⟩ : BufTy).Contents (Elt F) → (⟨S3300000, .f32⟩ : BufTy).Contents (Elt F)) ]

/-- Operations 104 … 137: layer two: aggregation, bias, row-wise log-softmax. -/
abbrev ops4 : List (HloOp τ sig (Elt F)) :=
  [ nullary main_c_17 (constantI S_ 32 0#32),
    unary main_c_17 main_v79 (broadcastInDim S3300000 ![] bcast_S_S3300000 : (⟨S_, .i32⟩ : BufTy).Contents (Elt F) → (⟨S3300000, .i32⟩ : BufTy).Contents (Elt F)),
    binary main_v52 main_v79 main_v80 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v81 (broadcastInDim S3300000 ![] bcast_S_S3300000 : (⟨S_, .i32⟩ : BufTy).Contents (Elt F) → (⟨S3300000, .i32⟩ : BufTy).Contents (Elt F)),
    binary main_v52 main_v81 main_v82 (addi : (⟨S3300000, .i32⟩ : BufTy).Contents (Elt F) → (⟨S3300000, .i32⟩ : BufTy).Contents (Elt F) → (⟨S3300000, .i32⟩ : BufTy).Contents (Elt F)),
    ternary main_v80 main_v82 main_v52 main_v83 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v83 main_v84 (broadcastInDim S3300000x1 ![0] bcast_S3300000_S3300000x1_0 : (⟨S3300000, .i32⟩ : BufTy).Contents (Elt F) → (⟨S3300000x1, .i32⟩ : BufTy).Contents (Elt F)),
    binary main_v48 main_v84 main_v85 ((fun x i => Host.gather gather_S100000x8_S3300000x1_S3300000x8_1_0_n_n_0_1_18 x i) : (⟨S100000x8, .f32⟩ : BufTy).Contents (Elt F) → (⟨S3300000x1, .i32⟩ : BufTy).Contents (Elt F) → (⟨S3300000x8, .f32⟩ : BufTy).Contents (Elt F)),
    unary main_v78 main_v86 (broadcastInDim S3300000x1 ![0] bcast_S3300000_S3300000x1_0 : (⟨S3300000, .f32⟩ : BufTy).Contents (Elt F) → (⟨S3300000x1, .f32⟩ : BufTy).Contents (Elt F)),
    unary main_v86 main_v87 (broadcastInDim S3300000x8 ![0, 1] bcast_S3300000x1_S3300000x8_0_1 : (⟨S3300000x1, .f32⟩ : BufTy).Contents (Elt F) → (⟨S3300000x8, .f32⟩ : BufTy).Contents (Elt F)),
    binary main_v85 main_v87 main_v88 (mulf : (⟨S3300000x8, .f32⟩ : BufTy).Contents (Elt F) → (⟨S3300000x8, .f32⟩ : BufTy).Contents (Elt F) → (⟨S3300000x8, .f32⟩ : BufTy).Contents (Elt F)),
    nullary main_cst_19 (constant S_ .f32 0x00000000#32),
    unary main_cst_19 main_v89 (broadcastInDim S100000x8 ![] bcast_S_S100000x8 : (⟨S_, .f32⟩ : BufTy).Contents (Elt F) → (⟨S100000x8, .f32⟩ : BufTy).Contents (Elt F)),
    unary main_v55 main_v90 (broadcastInDim S3300000x1 ![0] bcast_S3300000_S3300000x1_0 : (⟨S3300000, .i32⟩ : BufTy).Contents (Elt F) → (⟨S3300000x1, .i32⟩ : BufTy).Contents (Elt F)),
    ternary main_v89 main_v90 main_v88 main_v91 ((fun x i u => Host.scatterAdd scatter_S100000x8_S3300000x1_S3300000x8_1_0_0_1 x i u) : (⟨S100000x8, .f32⟩ : BufTy).Contents (Elt F) → (⟨S3300000x1, .i32⟩ : BufTy).Contents (Elt F) → (⟨S3300000x8, .f32⟩ : BufTy).Contents (Elt F) → (⟨S100000x8, .f32⟩ : BufTy).Contents (Elt F)),
    unary main_arg5 main_v92 (broadcastInDim S1x8 ![1] bcast_S8_S1x8_1 : (⟨S8, .f32⟩ : BufTy).Contents (Elt F) → (⟨S1x8, .f32⟩ : BufTy).Contents (Elt F)),
    unary main_v92 main_v93 (broadcastInDim S100000x8 ![0, 1] bcast_S1x8_S100000x8_0_1 : (⟨S1x8, .f32⟩ : BufTy).Contents (Elt F) → (⟨S100000x8, .f32⟩ : BufTy).Contents (Elt F)),
    binary main_v91 main_v93 main_v94 (addf : (⟨S100000x8, .f32⟩ : BufTy).Contents (Elt F) → (⟨S100000x8, .f32⟩ : BufTy).Contents (Elt F) → (⟨S100000x8, .f32⟩ : BufTy).Contents (Elt F)),
    TRef.nullary (TRef.of (T := ⟨S_, .f32⟩) main_call3_cst) (constant S_ .f32 0xFF800000#32),
    TRef.binary (TRef.of (T := ⟨S100000x8, .f32⟩) main_v94) (TRef.of (T := ⟨S_, .f32⟩) main_call3_cst) (TRef.of (T := ⟨S100000, .f32⟩) main_call3_v0) (fun x v => Host.reduce FloatOps.maximumf x v reducesTo_S100000x8_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x8, .f32⟩) main_call3_v4) (broadcastInDim S100000x8 ![0, 1] bcast_S100000x1_S100000x8_0_1),
    TRef.binary (TRef.of (T := ⟨S100000x8, .f32⟩) main_v94) (TRef.of (T := ⟨S100000x8, .f32⟩) main_call3_v4) (TRef.of (T := ⟨S100000x8, .f32⟩) main_call3_v5) subf,
    TRef.unary (TRef.of (T := ⟨S100000x8, .f32⟩) main_call3_v5) (TRef.of (T := ⟨S100000x8, .f32⟩) main_call3_v6) Host.exp,
    TRef.nullary (TRef.of (T := ⟨S_, .f32⟩) main_call3_cst_1) (constant S_ .f32 0x00000000#32),
    TRef.binary (TRef.of (T := ⟨S100000x8, .f32⟩) main_call3_v6) (TRef.of (T := ⟨S_, .f32⟩) main_call3_cst_1) (TRef.of (T := ⟨S100000, .f32⟩) main_call3_v7) (fun x v => Host.reduceAdd x v reducesTo_S100000x8_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x8, .f32⟩) main_call3_v10) (broadcastInDim S100000x8 ![0, 1] bcast_S100000x1_S100000x8_0_1),
    TRef.binary (TRef.of (T := ⟨S100000x8, .f32⟩) main_call3_v5) (TRef.of (T := ⟨S100000x8, .f32⟩) main_call3_v10) (TRef.of (T := ⟨S100000x8, .f32⟩) main_v95) subf ]

set_option maxRecDepth 8192 in
/-- The list is the four stretches in order. -/
theorem ops_eq : (ops : List (HloOp τ sig (Elt F))) = ops1 ++ (ops2 ++ (ops3 ++ ops4)) := rfl

end Cert.ReferenceIdeal.ValueP

end
-- ==== Proof.RefStretch.lean ====
/-
  The reference program's four stretches, read.

  After the first 41 operations the buffers hold the first product, the edge list (sources and destinations, the
  self loops appended) and the edge weights; after the next 22, layer one's output; after the next 41, the second
  product and the edge list and weights computed again from the same edge input; after the last 34, the result.
  No operation writes an argument, so an argument a later stretch reads is what the stretch before it held.
-/
import proofs.«156959_j16501264351680_1_alg».proof.Proof.RefChunks
import proofs.«156959_j16501264351680_1_alg».proof.Proof.SpecDefs
import Idealize.ShloMosaic.Lib.StableHlo.Run

set_option maxRecDepth 16384

noncomputable section

namespace Cert.ReferenceIdeal.RefRun

open Cert.ReferenceIdeal Cert.ReferenceIdeal.Gen Cert.ReferenceIdeal.ValueP
open Idealize.ShloMosaic Idealize.ShloMosaic.TcCoe Idealize.SL.Sem Idealize.ShloMosaic.StableHlo
open Cert.Gcn

variable {F : FTy → Type} [FloatOps F]
variable (m : (ℓ : Loc nD τ sig) → Buf (Elt F) ℓ) (c : Dev nD)

/-- The buffers after the first stretch, from the launch contents. -/
def U1 : Valuation τ sig (Elt F) := StableHlo.after ops1 (launchContents m c)
/-- After the second. -/
def U2 : Valuation τ sig (Elt F) := StableHlo.after ops2 (U1 m c)
/-- After the third. -/
def U3 : Valuation τ sig (Elt F) := StableHlo.after ops3 (U2 m c)
/-- After the fourth: the end of the program. -/
def U4 : Valuation τ sig (Elt F) := StableHlo.after ops4 (U3 m c)

/-- The first product. -/
theorem U1_dot : U1 m c (Proc.devRef .tc main_v0) = dot1 (m ((c.tc : Thread nD τ).loc main_arg0)) (m ((c.tc : Thread nD τ).loc main_arg2)) := by
  unfold U1; dsimp only [ops1]
  after_results <;> (try simp only [TRef.ofBuf, TRef.toBuf, cast_eq]) <;> rfl

/-- The edges' sources. -/
theorem U1_src : U1 m c (Proc.devRef .tc main_v4) = srcOf (m ((c.tc : Thread nD τ).loc main_arg1)) := by
  unfold U1; dsimp only [ops1]
  after_results <;> (try simp only [TRef.ofBuf, TRef.toBuf, cast_eq]) <;> rfl

/-- The edges' destinations. -/
theorem U1_dst : U1 m c (Proc.devRef .tc main_v7) = dstOf (m ((c.tc : Thread nD τ).loc main_arg1)) := by
  unfold U1; dsimp only [ops1]
  after_results <;> (try simp only [TRef.ofBuf, TRef.toBuf, cast_eq]) <;> rfl

set_option maxHeartbeats 4000000 in
/-- The edges' weights. -/
theorem U1_w : U1 m c (Proc.devRef .tc main_v30) = wOf (m ((c.tc : Thread nD τ).loc main_arg1)) := by
  unfold U1; dsimp only [ops1]
  after_results <;> (try simp only [TRef.ofBuf, TRef.toBuf, cast_eq]) <;> rfl

/-- The edge input is as launched. -/
theorem U1_arg1 : U1 m c (Proc.devRef .tc main_arg1) = m ((c.tc : Thread nD τ).loc main_arg1) := by
  unfold U1; dsimp only [ops1]
  after_results <;> (try simp only [TRef.ofBuf, TRef.toBuf, cast_eq]) <;> rfl

/-- The first bias is as launched. -/
theorem U1_arg3 : U1 m c (Proc.devRef .tc main_arg3) = m ((c.tc : Thread nD τ).loc main_arg3) := by
  unfold U1; dsimp only [ops1]
  after_results <;> (try simp only [TRef.ofBuf, TRef.toBuf, cast_eq]) <;> rfl

/-- The second weight matrix is as launched. -/
theorem U1_arg4 : U1 m c (Proc.devRef .tc main_arg4) = m ((c.tc : Thread nD τ).loc main_arg4) := by
  unfold U1; dsimp only [ops1]
  after_results <;> (try simp only [TRef.ofBuf, TRef.toBuf, cast_eq]) <;> rfl

/-- The second bias is as launched. -/
theorem U1_arg5 : U1 m c (Proc.devRef .tc main_arg5) = m ((c.tc : Thread nD τ).loc main_arg5) := by
  unfold U1; dsimp only [ops1]
  after_results <;> (try simp only [TRef.ofBuf, TRef.toBuf, cast_eq]) <;> rfl

set_option maxHeartbeats 4000000 in
/-- Layer one's output. -/
theorem U2_out : U2 m c (Proc.devRef .tc main_v47) = biasRelu (agg16 (U1 m c (Proc.devRef .tc main_v0)) (U1 m c (Proc.devRef .tc main_v4)) (U1 m c (Proc.devRef .tc main_v7)) (U1 m c (Proc.devRef .tc main_v30))) (U1 m c (Proc.devRef .tc main_arg3)) := by
  unfold U2; dsimp only [ops2]
  after_results <;> (try simp only [TRef.ofBuf, TRef.toBuf, cast_eq]) <;> rfl

/-- The edge input passes through. -/
theorem U2_arg1 : U2 m c (Proc.devRef .tc main_arg1) = U1 m c (Proc.devRef .tc main_arg1) := by
  unfold U2; dsimp only [ops2]
  after_results <;> (try simp only [TRef.ofBuf, TRef.toBuf, cast_eq]) <;> rfl

/-- The second weight matrix passes through. -/
theorem U2_arg4 : U2 m c (Proc.devRef .tc main_arg4) = U1 m c (Proc.devRef .tc main_arg4) := by
  unfold U2; dsimp only [ops2]
  after_results <;> (try simp only [TRef.ofBuf, TRef.toBuf, cast_eq]) <;> rfl

/-- The second bias passes through. -/
theorem U2_arg5 : U2 m c (Proc.devRef .tc main_arg5) = U1 m c (Proc.devRef .tc main_arg5) := by
  unfold U2; dsimp only [ops2]
  after_results <;> (try simp only [TRef.ofBuf, TRef.toBuf, cast_eq]) <;> rfl

/-- The second product. -/
theorem U3_dot : U3 m c (Proc.devRef .tc main_v48) = dot2 (U2 m c (Proc.devRef .tc main_v47)) (U2 m c (Proc.devRef .tc main_arg4)) := by
  unfold U3; dsimp only [ops3]
  after_results <;> (try simp only [TRef.ofBuf, TRef.toBuf, cast_eq]) <;> rfl

/-- The edges' sources, again. -/
theorem U3_src : U3 m c (Proc.devRef .tc main_v52) = srcOf (U2 m c (Proc.devRef .tc main_arg1)) := by
  unfold U3; dsimp only [ops3]
  after_results <;> (try simp only [TRef.ofBuf, TRef.toBuf, cast_eq]) <;> rfl

/-- The edges' destinations, again. -/
theorem U3_dst : U3 m c (Proc.devRef .tc main_v55) = dstOf (U2 m c (Proc.devRef .tc main_arg1)) := by
  unfold U3; dsimp only [ops3]
  after_results <;> (try simp only [TRef.ofBuf, TRef.toBuf, cast_eq]) <;> rfl

set_option maxHeartbeats 4000000 in
/-- The edges' weights, again. -/
theorem U3_w : U3 m c (Proc.devRef .tc main_v78) = wOf (U2 m c (Proc.devRef .tc main_arg1)) := by
  unfold U3; dsimp only [ops3]
  after_results <;> (try simp only [TRef.ofBuf, TRef.toBuf, cast_eq]) <;> rfl

/-- The second bias passes through. -/
theorem U3_arg5 : U3 m c (Proc.devRef .tc main_arg5) = U2 m c (Proc.devRef .tc main_arg5) := by
  unfold U3; dsimp only [ops3]
  after_results <;> (try simp only [TRef.ofBuf, TRef.toBuf, cast_eq]) <;> rfl

set_option maxHeartbeats 4000000 in
/-- The result. -/
theorem U4_out : U4 m c (Proc.devRef .tc main_v95) = logSoftmax (bias8 (agg8 (U3 m c (Proc.devRef .tc main_v48)) (U3 m c (Proc.devRef .tc main_v52)) (U3 m c (Proc.devRef .tc main_v55)) (U3 m c (Proc.devRef .tc main_v78))) (U3 m c (Proc.devRef .tc main_arg5))) := by
  unfold U4; dsimp only [ops4]
  after_results <;> (try simp only [TRef.ofBuf, TRef.toBuf, cast_eq]) <;> rfl

end Cert.ReferenceIdeal.RefRun

end
-- ==== Proof.RefRun.lean ====
/-
  The reference program's run, read stretch by stretch.

  The program is a line of 138 host operations. After the first 41 the buffers hold the first product, the edge
  list (sources and destinations, the self loops appended) and the edge weights; after the next 22, layer one's
  output; after the next 41, the second product and the edge list and weights computed again from the same edge
  input; after the last 34, the result. With each stretch's results read as the named functions of what the stretch
  found, and the arguments what was launched throughout, the result buffer ends at the two-layer graph convolution
  of the launched arguments.
-/
import proofs.«156959_j16501264351680_1_alg».proof.Proof.RefStretch
import Idealize.ShloMosaic.Lib.Pipeline.Frame

set_option maxRecDepth 16384

noncomputable section

namespace Cert.ReferenceIdeal.RefRun

open Cert.ReferenceIdeal Cert.ReferenceIdeal.Gen Cert.ReferenceIdeal.ValueP
open Idealize.ShloMosaic Idealize.ShloMosaic.TcCoe Idealize.SL.Sem Idealize.ShloMosaic.StableHlo
open Cert.Gcn

variable {F : FTy → Type} [FloatOps F]
variable (m : (ℓ : Loc nD τ sig) → Buf (Elt F) ℓ) (c : Dev nD)

/-- The whole line is the four stretches one after the other. -/
theorem after_ops : StableHlo.after ops (launchContents m c) = U4 m c := by
  rw [ops_eq, StableHlo.after_append, StableHlo.after_append, StableHlo.after_append]
  rfl

/-! ## The result and the run -/

/-- The result buffer at the end of the line is the graph convolution of the launched arguments. -/
theorem result : StableHlo.after ops (launchContents m c) (Proc.devRef .tc main_v95)
    = gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [after_ops, U4_out, U3_dot, U3_src, U3_dst, U3_w, U3_arg5, U2_out, U2_arg1, U2_arg4, U2_arg5,
    U1_dot, U1_src, U1_dst, U1_w, U1_arg1, U1_arg3, U1_arg4, U1_arg5]
  rfl

set_option maxRecDepth 8192 in
set_option maxHeartbeats 55200000 in
/-- On every device, from any memory with zero counters: every weakly fair execution of the reference program
    terminates with the result buffer at the graph convolution of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95) = gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v95).trans (result m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RefRun

end
-- ==== Proof.lean ====
/-
  A two-layer graph convolution, kernel against reference, over the extended reals.

  Both programs compute, from node features x [100000, 256], an edge list [2, 3200000] and two weight matrices
  and biases,  out = log_softmax (A (relu (A (x W1) + b1) W2) + b2),  where A aggregates over the edges with one
  self loop per node added: row d of A h is the sum over edges e into d of h[src e] * dinv[src e] * dinv[d],
  dinv the reciprocal square root of the in-degree where it is positive.

  The kernel program computes the two products, the bias-and-maximum and the bias-and-log-softmax in four tiled
  regions of 20 row blocks each, and everything that depends on the edge list with host operations between them;
  the reference computes all of it with host operations. Over the extended reals a narrowing of the operands is the
  identity, a product accumulated into zero is the host's product (the same sum over k), and a block's rows are
  reduced inside the block, so each region's output array is the reference's operation applied to the arrays the
  region found (RegionMM0, RegionRelu, RegionMM2, RegionLS and Bridge). The host operations on the edge list are the
  same in both programs; the reference only performs them twice. So both result buffers end at one term, `Gcn.gcn`
  of the six arguments (KernelValue for the kernel program, RefRun for the reference), and no law of arithmetic that
  fails at an infinity is used: the precondition is not needed for the values.

  The kernel programs' frames are the generated ones; the reference's frame is its run with the result dropped; the
  idealization rewrote nothing, so `preserves` is trivial.
-/
import proofs.«156959_j16501264351680_1_alg».proof.Defs
import proofs.«156959_j16501264351680_1_alg».proof.Proof.Gen.Kernel.Frame
import proofs.«156959_j16501264351680_1_alg».proof.Proof.Gen.KernelIdeal.Frame
import proofs.«156959_j16501264351680_1_alg».proof.Proof.Gen.ReferenceIdeal
import proofs.«156959_j16501264351680_1_alg».proof.Proof.Gen.Pre_finite_inputs
import proofs.«156959_j16501264351680_1_alg».proof.Proof.KernelValue
import proofs.«156959_j16501264351680_1_alg».proof.Proof.RefRun

noncomputable section

namespace Cert.Proof

open Idealize.ShloMosaic Idealize.SL.Sem

/-- The kernel program as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories agreeing on the arguments both programs end with the result buffer at the graph convolution of
    the arguments: the same term, once the arguments' agreement is rewritten. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.KValue.run m ρ, ?_⟩
  refine (θ_run Cert.ReferenceIdeal.defs _ _).mono (fun _ h c => ⟨(h c).1.trans ?_, (h c).2⟩) (Cert.ReferenceIdeal.RefRun.run (F := Ideal) m' ρ')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
